-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 80
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .bf16⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .bf16⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  packedbf16_S5000x128_S5000x128_0_0 : (Rect.unit (s := S5000x128) ![0, 0] S5000x128.size inb_S5000x128_S5000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S128x128, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call1_cst : Ref sig .tc := ⟨.hbm, 100, rfl⟩
abbrev main_call1_v0 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KR0.lean ====
/-
  Region 0 of the kernel program: the linear layer `h = x · Wᵀ`, computed block by block.  The grid has ten
  points; point `t` sees rows `5000·t … 5000·t + 4999` of `x` (window 0), the whole weight matrix `W`
  (window 1, whose block index never moves, so it is brought in once), and writes the matching rows of `h`
  (window 2).  Stated at a parameter `V`: the buffers' contents when the region is entered.

  What is proved here, for any float model `F`:
  * at every grid point each input window's current buffer holds that window's block of its array;
  * the body, run on such buffers, leaves in the output buffer the product block — the single store's payload
    `k0_pay1 (x block) (W)` — and leaves the inputs as they were;
  * hence the pipeline's body obligation for the proof data `dat0`.
-/
import proofs.«132631_j31903017074707_1_alg».proof.Proof.Gen.Kernel.Launch
import proofs.«132631_j31903017074707_1_alg».proof.Proof.Gen.Kernel.Skeleton
import proofs.«132631_j31903017074707_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at grid point `t`: the rows (for the weights: the whole matrix) that point sees, read
    off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` is in window 0's current buffer at every point (it is brought in at every point), for
    any proof data over `V`'s array whose body leaves that block where it is. -/
theorem xrows_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in window 1's buffer at every point although it is brought in at the first point only:
    its block index is constant, so at a later point the buffer still holds the previous point's block, which
    is this point's. -/
theorem weights_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole `[5000, 128]` buffer as a rectangle (the row block of `x`, and the row block of `h`). -/
abbrev rowsRect : Rect S5000x128 := Rect.unit (s := S5000x128) ![0, 0] S5000x128.size inb_S5000x128_S5000x128_0_0
/-- The whole `[128, 128]` buffer as a rectangle (the weights). -/
abbrev wgtRect : Rect S128x128 := Rect.unit (s := S128x128) ![0, 0] S128x128.size inb_S128x128_S128x128_0_0

/-! ## What the body leaves in the output buffer -/

/-- The output buffer after the body, from the two input blocks: one store of the whole buffer, whose payload
    is the product of the row block with the transposed weights (the skeleton's `k0_pay1`). -/
def hrows (x : Vec F S5000x128 .f32) (w : Vec F S128x128 .f32) : Vec F S5000x128 .bf16 :=
  View.canon [⟨rowsRect, k0_pay1 (View.ld x rowsRect) (View.ld w wgtRect)⟩]

/-- That one store covers the buffer. -/
theorem hrows_cover (p : Vec F S5000x128 .bf16) (y : S5000x128.Idx) :
    ∃ pc ∈ ([⟨rowsRect, p⟩] : List (View.Piece (Elt F) S5000x128 .bf16)), y ∈ pc.1.set :=
  View.cover_of_tiled [⟨rowsRect, p⟩] S5000x128.size (by rfl) y

/-! ## The body's triple -/

set_option maxHeartbeats 1000000 in
/-- The body on whole buffers — the inputs' reading `x` and `w`, the output's holding anything — runs to a
    state with the inputs untouched and the output at `hrows x w`.  It loads `x` and `w`, loads the output
    buffer too (a value it never uses, so the buffer's contents on entry do not matter), and stores the
    product over the whole output buffer. -/
theorem sound_matmul (c : Dev nD) (E : Set ℕ)
    (arg0 : Memref sig .tc .vmem S5000x128 .f32) (harg0 : arg0.IsWhole)
    (arg1 : Memref sig .tc .vmem S128x128 .f32) (harg1 : arg1.IsWhole)
    (arg2 : Memref sig .tc .vmem S5000x128 .bf16) (harg2 : arg2.IsWhole)
    (i : grid0.Coords) (x : Vec F S5000x128 .f32) (w : Vec F S128x128 .f32) (K : PUnit → sProp 𝕄) :
    iprop(owns (c : Thread nD τ) arg0 fullShare x ∗ owns (c : Thread nD τ) arg1 fullShare w
        ∗ (∃ d, owns (c : Thread nD τ) arg2 fullShare d)
        ∗ (iprop(owns (c : Thread nD τ) arg0 fullShare x ∗ owns (c : Thread nD τ) arg1 fullShare w
            ∗ owns (c : Thread nD τ) arg2 fullShare (hrows x w)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (hrows_cover _)

/-! ## The pipeline's proof data -/

/-- The proof data of this pipeline on core `c`: the arrays as the region finds them; after the body at point
    `t` the inputs' buffers still at their blocks and the output's at the product block; the invariant is the
    untouched rest; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hrows (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hrows (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  xrows_before_of V (dat0 V c) (A_eq0 V c 0) (after0_0 V c) t d
theorem before0_1 (c : Dev nD) (t : Fin cfg0.N) (d) : (dat0 V c).before 1 t d = iblk0 V c 1 t :=
  weights_before_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_matmul` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_matmul c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/-
  REGION 1 of the kernel program: the batch-statistics reduction. A grid of ten points walks the table of
  aggregated features in blocks of 5000 rows; two scratch rows of 128 lanes carry, from point to point, the column
  sums and the column sums of squares of the rows seen so far. The body resets both rows to zero at the first point,
  adds the block's column sums (of the entries, of their squares) to them at every point, and at the last point copies
  them into the two [1,128] outputs, whose windows are idle everywhere else and written back at the last point only.

  This module states what the two scratch rows hold after each point as a recursion over the body's payloads
  (`stats_acc`), runs the body once per control case (first point, a middle point, last point), and assembles the
  pipeline's proof data `dat1` with its body obligation and the two entailments that tie its invariant to the
  region's at entry and exit.
-/
import proofs.«132631_j31903017074707_1_alg».proof.Proof.Gen.Kernel.Launch
import proofs.«132631_j31903017074707_1_alg».proof.Proof.Gen.Kernel.Skeleton
import proofs.«132631_j31903017074707_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branches, decided over the grid -/

/-- The condition of the body's first branch (the accumulators are reset): the grid coordinate is zero. -/
abbrev cond1_first (i : grid1.Coords) : Prop :=
  (Scalar.cmpi .ne (Scalar.extui (Scalar.cmpi .eq (BitVec.ofNat 32 (i 0).val) 0#32)) 0#32) = 1#1
/-- It holds at point 0 only. -/
theorem hcond1_first : ∀ t : Fin cfg1.N, cond1_first (grid1.coords t) ↔ t.val = 0 :=
  (by decide +kernel : ∀ t : Fin grid1.N, cond1_first (grid1.coords t) ↔ t.val = 0)
/-- The condition of the body's second branch (the accumulators are copied to the outputs): the grid coordinate is nine. -/
abbrev cond1_last (i : grid1.Coords) : Prop := k1_cond2 i = 1#1
/-- It holds at point 9 only. -/
theorem hcond1_last : ∀ t : Fin cfg1.N, cond1_last (grid1.coords t) ↔ t.val = 9 :=
  (by decide +kernel : ∀ t : Fin grid1.N, cond1_last (grid1.coords t) ↔ t.val = 9)

/-! ## Whole-buffer accesses -/

theorem stats_zeros : (![0, 0] : Fin 2 → Nat) = fun _ => 0 := funext fun a => by fin_cases a <;> rfl

/-- A buffer of any shape reads, after a last store through the whole-shape rectangle at zero offsets, what was stored. -/
theorem stats_read_writes_unit_zero {Val : EltTy → Type} {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The body's run, one triple per control case -/

set_option maxHeartbeats 1000000 in
/-- AT THE FIRST POINT (first branch taken, second not): from the input block `x0`, the two outputs' buffers at
    `y1`, `y2` (handed back untouched) and the two scratch buffers at anything, the body leaves the scratch buffers at
    the block's column sums added to the zero row and at the column sums of its squares added to the zero row: each
    scratch load after the reset store reads the zero row stored. -/
theorem stats_run_first (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond1_first i) (hc1 : ¬cond1_last i)
    (x0 : Vec F S5000x128 .f32) (y1 y2 : Vec F S1x128 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 (k1_pay1 (F := F)))
            ∗ owns (c : Thread nD τ) arg5 fullShare (k1_pay5 x0 (k1_pay2 (F := F)))) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H4]
  · iexists _; isplitr
    swap; · iexact H4
    ipureintro
    rw [stats_read_writes_unit_zero (S := S1x128) _ _ stats_zeros]
    unfold stats_run_first.sl.v5 stats_run_first.sl.H4_1
    rw [View.readAt_eq_ld, View.ld_unit_zero (S := S5000x128) stats_zeros, View.readCov_unit_zero (S := S1x128) _ stats_zeros]
  · iexists _; isplitr
    swap; · iexact H5
    ipureintro
    rw [stats_read_writes_unit_zero (S := S1x128) _ _ stats_zeros]
    unfold stats_run_first.sl.v12 stats_run_first.sl.H5_1
    rw [View.readAt_eq_ld, View.ld_unit_zero (S := S5000x128) stats_zeros, View.readCov_unit_zero (S := S1x128) _ stats_zeros]

set_option maxHeartbeats 1000000 in
/-- AT A MIDDLE POINT (neither branch taken): from the input block `x0`, the outputs' buffers at `y1`, `y2` (handed
    back untouched) and the scratch buffers at `s1`, `s2`, the body leaves the scratch buffers at the block's column
    sums added to `s1` and at the column sums of its squares added to `s2`. -/
theorem stats_run_middle (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_first i) (hc1 : ¬cond1_last i)
    (x0 : Vec F S5000x128 .f32) (y1 y2 s1 s2 : Vec F S1x128 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s1 ∗ owns (c : Thread nD τ) arg5 fullShare s2
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 s1)
            ∗ owns (c : Thread nD τ) arg5 fullShare (k1_pay5 x0 s2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H4]
  · iexists _; isplitr
    swap; · iexact H4
    ipureintro
    rw [stats_read_writes_unit_zero (S := S1x128) _ _ stats_zeros]
    simp only [View.readAt_eq_ld, View.ld_unit_zero (S := S5000x128) stats_zeros, View.ld_unit_zero (S := S1x128) stats_zeros]
  · iexists _; isplitr
    swap; · iexact H5
    ipureintro
    rw [stats_read_writes_unit_zero (S := S1x128) _ _ stats_zeros]
    simp only [View.readAt_eq_ld, View.ld_unit_zero (S := S5000x128) stats_zeros, View.ld_unit_zero (S := S1x128) stats_zeros]

set_option maxHeartbeats 1000000 in
/-- AT THE LAST POINT (first branch not taken, second taken): from the input block `x0`, the outputs' buffers at
    anything and the scratch buffers at `s1`, `s2`, the body leaves the scratch buffers at the block's column sums added
    to `s1` and at the column sums of its squares added to `s2`, and each output's buffer at a copy of its
    accumulator: the scratch load after the store reads the value stored. -/
theorem stats_run_last (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_first i) (hc1 : cond1_last i)
    (x0 : Vec F S5000x128 .f32) (s1 s2 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s1 ∗ owns (c : Thread nD τ) arg5 fullShare s2
        ∗ (iprop(owns (c : Thread nD τ) arg1 fullShare x0
            ∗ owns (c : Thread nD τ) arg2 fullShare (k1_pay4 x0 s1) ∗ owns (c : Thread nD τ) arg3 fullShare (k1_pay5 x0 s2)
            ∗ owns (c : Thread nD τ) arg4 fullShare (k1_pay4 x0 s1)
            ∗ owns (c : Thread nD τ) arg5 fullShare (k1_pay5 x0 s2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [stats_read_writes_unit_zero (S := S1x128) _ _ stats_zeros]
    unfold stats_run_last.sl.v23 stats_run_last.sl.H4_1
    rw [View.readCov_unit_zero (S := S1x128) _ stats_zeros]
    simp only [View.readAt_eq_ld, View.ld_unit_zero (S := S5000x128) stats_zeros, View.ld_unit_zero (S := S1x128) stats_zeros]
  isplitl [H2]
  · iexists _; isplitr
    swap; · iexact H2
    ipureintro
    rw [stats_read_writes_unit_zero (S := S1x128) _ _ stats_zeros]
    unfold stats_run_last.sl.v25 stats_run_last.sl.H5_1
    rw [View.readCov_unit_zero (S := S1x128) _ stats_zeros]
    simp only [View.readAt_eq_ld, View.ld_unit_zero (S := S5000x128) stats_zeros, View.ld_unit_zero (S := S1x128) stats_zeros]
  isplitl [H4]
  · iexists _; isplitr
    swap; · iexact H4
    ipureintro
    unfold stats_run_last.sl.H4_1
    rw [stats_read_writes_unit_zero (S := S1x128) _ _ stats_zeros]
    simp only [View.readAt_eq_ld, View.ld_unit_zero (S := S5000x128) stats_zeros, View.ld_unit_zero (S := S1x128) stats_zeros]
  · iexists _; isplitr
    swap; · iexact H5
    ipureintro
    unfold stats_run_last.sl.H5_1
    rw [stats_read_writes_unit_zero (S := S1x128) _ _ stats_zeros]
    simp only [View.readAt_eq_ld, View.ld_unit_zero (S := S5000x128) stats_zeros, View.ld_unit_zero (S := S1x128) stats_zeros]

/-! ## The region's data, at the contents `V` the region finds in the TensorCore's buffers -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table's window holds, at every point, the block of 5000 rows the point names, for any proof data whose array is the
    region-entry contents and whose body leaves the block in place: the window is an input, uncut and never idle. -/
theorem stats_rows_before_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two accumulators after each point -/

/-- THE ACCUMULATION. What the two scratch rows hold after the body at point `n`: (the column sums so far, the column
    sums of squares so far). After point 0 the first block's sums added to the zero row the reset stored; after point
    `n + 1` that block's sums added to what point `n` left. -/
def stats_acc (c : Dev nD) : (n : ℕ) → n < cfg1.N → Vec F S1x128 .f32 × Vec F S1x128 .f32
  | 0, hn => (k1_pay4 (iblk1 V c 0 ⟨0, hn⟩) (k1_pay1 (F := F)), k1_pay5 (iblk1 V c 0 ⟨0, hn⟩) (k1_pay2 (F := F)))
  | n + 1, hn => (k1_pay4 (iblk1 V c 0 ⟨n + 1, hn⟩) (stats_acc c n (Nat.lt_of_succ_lt hn)).1,
      k1_pay5 (iblk1 V c 0 ⟨n + 1, hn⟩) (stats_acc c n (Nat.lt_of_succ_lt hn)).2)

/-- `stats_acc` at the first point. -/
theorem stats_acc_zero (c : Dev nD) (t : Fin cfg1.N) (h0 : t.val = 0) :
    stats_acc V c t.val t.isLt = (k1_pay4 (iblk1 V c 0 t) (k1_pay1 (F := F)), k1_pay5 (iblk1 V c 0 t) (k1_pay2 (F := F))) := by
  obtain ⟨n, hn⟩ := t
  cases n with
  | zero => rfl
  | succ n => exact absurd h0 (Nat.succ_ne_zero n)

/-- `stats_acc` at a later point: this block's sums added to what the point before left. -/
theorem stats_acc_pos (c : Dev nD) (t : Fin cfg1.N) (h0 : t.val ≠ 0) :
    stats_acc V c t.val t.isLt
      = (k1_pay4 (iblk1 V c 0 t) (stats_acc V c (t.val - 1) (Nat.lt_of_le_of_lt (Nat.sub_le _ _) t.isLt)).1,
         k1_pay5 (iblk1 V c 0 t) (stats_acc V c (t.val - 1) (Nat.lt_of_le_of_lt (Nat.sub_le _ _) t.isLt)).2) := by
  obtain ⟨n, hn⟩ := t
  cases n with
  | zero => exact absurd rfl h0
  | succ n => rfl

theorem stats_acc_first_sum (c : Dev nD) (t : Fin cfg1.N) (h0 : t.val = 0) :
    (stats_acc V c t.val t.isLt).1 = k1_pay4 (iblk1 V c 0 t) (k1_pay1 (F := F)) := by
  obtain ⟨n, hn⟩ := t
  cases n with
  | zero => rfl
  | succ n => exact absurd h0 (Nat.succ_ne_zero n)

theorem stats_acc_first_sumsq (c : Dev nD) (t : Fin cfg1.N) (h0 : t.val = 0) :
    (stats_acc V c t.val t.isLt).2 = k1_pay5 (iblk1 V c 0 t) (k1_pay2 (F := F)) := by
  obtain ⟨n, hn⟩ := t
  cases n with
  | zero => rfl
  | succ n => exact absurd h0 (Nat.succ_ne_zero n)

theorem stats_acc_later_sum (c : Dev nD) (t : Fin cfg1.N) (h0 : t.val ≠ 0) :
    (stats_acc V c t.val t.isLt).1
      = k1_pay4 (iblk1 V c 0 t) (stats_acc V c (t.val - 1) (Nat.lt_of_le_of_lt (Nat.sub_le _ _) t.isLt)).1 := by
  obtain ⟨n, hn⟩ := t
  cases n with
  | zero => exact absurd rfl h0
  | succ n => rfl

theorem stats_acc_later_sumsq (c : Dev nD) (t : Fin cfg1.N) (h0 : t.val ≠ 0) :
    (stats_acc V c t.val t.isLt).2
      = k1_pay5 (iblk1 V c 0 t) (stats_acc V c (t.val - 1) (Nat.lt_of_le_of_lt (Nat.sub_le _ _) t.isLt)).2 := by
  obtain ⟨n, hn⟩ := t
  cases n with
  | zero => exact absurd rfl h0
  | succ n => rfl

/-! ## The invariant: where the two scratch rows are between points -/

/-- The two scratch operands: whole scoped buffers of the kernel's own. -/
abbrev stats_sc0 : Memref sig .tc .vmem S1x128 .f32 := Memref.whole cc1_scratch0
abbrev stats_sc1 : Memref sig .tc .vmem S1x128 .f32 := Memref.whole cc1_scratch1

/-- The core's scoped buffers that are neither a staging buffer of this call nor one of its two scratch rows. -/
abbrev stats_rest (c : Dev nD) : sProp 𝕄 :=
  Pipeline.scopedRestBut (Ix := Unit) (Name := ℕ) (U := UR sig nD τ) (Lvl := ℕ) (Val := Elt F) spec1 c [cc1_scratch0, cc1_scratch1]

/-- The region invariant before position `n`: before the first point every scoped buffer that is no staging buffer at
    anything and the generator register at some state; afterwards the two scratch rows at the accumulators the point
    before left, the other scoped buffers at anything, the generator register at some state. -/
def stats_Phi (c : Dev nD) : (n : ℕ) → n ≤ cfg1.N → sProp 𝕄
  | 0, _ => Pipeline.ΦA spec1 c
  | n + 1, hn => iprop(((owns (c : Thread nD τ) stats_sc0 fullShare (stats_acc V c n hn).1
      ∗ owns (c : Thread nD τ) stats_sc1 fullShare (stats_acc V c n hn).2) ∗ stats_rest c) ∗ (∃ r, prngReg c r))

theorem stats_Phi_zero (c : Dev nD) (n : ℕ) (h : n ≤ cfg1.N) (hz : n = 0) : stats_Phi V c n h = Pipeline.ΦA spec1 c := by
  subst hz; rfl

theorem stats_Phi_succ (c : Dev nD) (n : ℕ) (hn : n < cfg1.N) :
    stats_Phi V c (n + 1) hn = iprop(((owns (c : Thread nD τ) stats_sc0 fullShare (stats_acc V c n hn).1
      ∗ owns (c : Thread nD τ) stats_sc1 fullShare (stats_acc V c n hn).2) ∗ stats_rest c) ∗ (∃ r, prngReg c r)) := rfl

theorem stats_Phi_pos (c : Dev nD) (n : ℕ) (h : n ≤ cfg1.N) (hz : n ≠ 0) :
    stats_Phi V c n h = iprop(((owns (c : Thread nD τ) stats_sc0 fullShare (stats_acc V c (n - 1) (by omega)).1
      ∗ owns (c : Thread nD τ) stats_sc1 fullShare (stats_acc V c (n - 1) (by omega)).2) ∗ stats_rest c) ∗ (∃ r, prngReg c r)) := by
  cases n with
  | zero => exact absurd rfl hz
  | succ n => rfl

/-- The class's invariant with the two scratch rows split off, each a memref owned at some contents. -/
theorem stats_PhiA_eq (c : Dev nD) :
    (Pipeline.ΦA spec1 c : sProp 𝕄)
      = iprop((((∃ d, owns (c : Thread nD τ) stats_sc0 fullShare d) ∗ (∃ d, owns (c : Thread nD τ) stats_sc1 fullShare d))
          ∗ stats_rest c) ∗ (∃ r, prngReg c r)) := by
  unfold Pipeline.ΦA
  rw [Pipeline.scopedRest_split_of_list spec1 c [cc1_scratch0, cc1_scratch1] (by decide) (by decide)]
  simp only [bigSepL_cons_cons, bigSepL_singleton, stats_sc0, stats_sc1, owns_whole]; try rfl

/-! ## The pipeline's proof data -/

/-- The proof data of this pipeline on core `c`: the arrays as the region finds them; after the body at point `t` the
    table's window at its block and the two outputs' windows at the two accumulators (what the body stores there at the
    last point; at the other points the windows are idle and nothing reads this); the invariant `stats_Phi`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (stats_acc V c t.val t.isLt).1
    | ⟨2, _⟩ => (stats_acc V c t.val t.isLt).2
  Φ t := stats_Phi V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem stats_Phi_castSucc (c : Dev nD) (t : Fin cfg1.N) :
    (dat1 V c).Φ t.castSucc = stats_Phi V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (stats_acc V c t.val t.isLt).1 := by dsimp only [dat1]
theorem after1_2 (c : Dev nD) (t : Fin cfg1.N) : (dat1 V c).after 2 t = (stats_acc V c t.val t.isLt).2 := by dsimp only [dat1]

/-- The table's window holds its block at every point, fetched there or not. -/
theorem before1_0 (c : Dev nD) (t : Fin cfg1.N) (d) : (dat1 V c).before 0 t d = iblk1 V c 0 t :=
  stats_rows_before_of V (dat1 V c) (A_eq1 V c 0) (after1_0 V c) t d

/-! ## Where the windows are idle and where they are written back -/

/-- The table's window is never idle. -/
theorem stats_live_rows : ∀ t : Fin cfg1.N, cfg1.idle 0 (grid1.coords t) = false := by decide +kernel
/-- Off the last point the sums' window is idle and not written back; at the last point it is live. -/
theorem stats_idle_sum : ∀ t : Fin cfg1.N, ¬cond1_last (grid1.coords t) → cfg1.idle 1 (grid1.coords t) = true := by decide +kernel
theorem stats_noflush_sum : ∀ t : Fin cfg1.N, ¬cond1_last (grid1.coords t) → (cfg1.win 1).flush t = false := by decide +kernel
theorem stats_live_sum : ∀ t : Fin cfg1.N, cond1_last (grid1.coords t) → cfg1.idle 1 (grid1.coords t) = false := by decide +kernel
/-- The same of the sums of squares' window. -/
theorem stats_idle_sumsq : ∀ t : Fin cfg1.N, ¬cond1_last (grid1.coords t) → cfg1.idle 2 (grid1.coords t) = true := by decide +kernel
theorem stats_noflush_sumsq : ∀ t : Fin cfg1.N, ¬cond1_last (grid1.coords t) → (cfg1.win 2).flush t = false := by decide +kernel
theorem stats_live_sumsq : ∀ t : Fin cfg1.N, cond1_last (grid1.coords t) → cfg1.idle 2 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The table's window holds its block; the point's number says which control case it is in. At
    the first point the invariant hands the two scratch rows at anything and takes them back at the first block's sums
    over the zero row; at a later point it hands them at the accumulators the point before left and takes them back with
    this block's sums added. Off the last point the outputs' windows are idle and come back as handed; at the last point
    they come back holding the two accumulators. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = stats_Phi V c (t.val + 1) t.isLt from rfl, stats_Phi_succ]
  rw [show (dat1 V c).leavesExact 0 t = owns (c : Thread nD τ) (st1_0 t) fullShare ((dat1 V c).after 0 t) from by
    unfold Dat.leavesExact; rw [stats_live_rows t], after1_0]
  have hN : t.val < 10 := lt_of_lt_of_eq t.isLt (show cfg1.N = 10 from N_1)
  by_cases h0 : t.val = 0
  · have hc0 : cond1_first (grid1.coords t) := (hcond1_first t).mpr h0
    have hc1 : ¬cond1_last (grid1.coords t) := fun h => by have := (hcond1_last t).mp h; omega
    rw [Dat.leavesExact_idle (dat1 V c) 1 t (stats_idle_sum t hc1) (stats_noflush_sum t hc1),
      Dat.leavesExact_idle (dat1 V c) 2 t (stats_idle_sumsq t hc1) (stats_noflush_sumsq t hc1)]
    rw [stats_acc_first_sum V c t h0, stats_acc_first_sumsq V c t h0]
    rw [stats_Phi_castSucc V c t, stats_Phi_zero V c _ _ h0, stats_PhiA_eq]
    iintro ⟨⟨⟨⟨HS0, HS1⟩, HR⟩, Hg⟩, Ho, ⟨%d0, H0⟩, ⟨%d1, H1⟩, ⟨%d2, H2⟩⟩
    iapply (stats_run_first c Set.univ (grid1.coords t) _ _ _ _ _ _ _ _ _ _ hc0 hc1 (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexists _; iexact H1
    iexists _; iexact H2
  · have hc0 : ¬cond1_first (grid1.coords t) := fun h => h0 ((hcond1_first t).mp h)
    rw [stats_acc_later_sum V c t h0, stats_acc_later_sumsq V c t h0]
    rw [stats_Phi_castSucc V c t, stats_Phi_pos V c _ _ h0]
    by_cases h9 : t.val = 9
    · have hc1 : cond1_last (grid1.coords t) := (hcond1_last t).mpr h9
      rw [show (dat1 V c).leavesExact 1 t = owns (c : Thread nD τ) (st1_1 t) fullShare ((dat1 V c).after 1 t) from by
        unfold Dat.leavesExact; rw [stats_live_sum t hc1], after1_1]
      rw [show (dat1 V c).leavesExact 2 t = owns (c : Thread nD τ) (st1_2 t) fullShare ((dat1 V c).after 2 t) from by
        unfold Dat.leavesExact; rw [stats_live_sumsq t hc1], after1_2]
      rw [stats_acc_later_sum V c t h0, stats_acc_later_sumsq V c t h0]
      iintro ⟨⟨⟨⟨HS0, HS1⟩, HR⟩, Hg⟩, Ho, ⟨%d0, H0⟩, ⟨%d1, H1⟩, ⟨%d2, H2⟩⟩
      iapply (stats_run_last c Set.univ (grid1.coords t) _ _ _ _ _ _ _ _ _ _ hc0 hc1 (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexact H2
    · have hc1 : ¬cond1_last (grid1.coords t) := fun h => h9 ((hcond1_last t).mp h)
      rw [Dat.leavesExact_idle (dat1 V c) 1 t (stats_idle_sum t hc1) (stats_noflush_sum t hc1),
        Dat.leavesExact_idle (dat1 V c) 2 t (stats_idle_sumsq t hc1) (stats_noflush_sumsq t hc1)]
      iintro ⟨⟨⟨⟨HS0, HS1⟩, HR⟩, Hg⟩, Ho, ⟨%d0, H0⟩, ⟨%d1, H1⟩, ⟨%d2, H2⟩⟩
      iapply (stats_run_middle c Set.univ (grid1.coords t) _ _ _ _ _ _ _ _ _ _ hc0 hc1 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = stats_Phi V c 0 (Nat.zero_le _) from rfl, stats_Phi_zero V c 0 _ rfl]
  try exact Idealize.SL.BI.Entails.refl _

/-- After any point but the first the invariant gives the class's back: the accumulators' names are forgotten. -/
theorem stats_Phi_out (c : Dev nD) (t : Fin (cfg1.N + 1)) (ht : t.val ≠ 0) : (dat1 V c).Φ t ⊢ Pipeline.ΦA spec1 c := by
  rw [show (dat1 V c).Φ t = stats_Phi V c t.val (Nat.le_of_lt_succ t.isLt) from rfl, stats_Phi_pos V c _ _ ht, stats_PhiA_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout1 (c : Dev nD) : (dat1 V c).Φ (Fin.last cfg1.N) ⊢ Pipeline.ΦA spec1 c :=
  stats_Phi_out V c _ (by rw [Fin.val_last]; have : cfg1.N = 10 := N_1; omega)

end Cert.Kernel.Hand

end
-- ==== Proof.KR2.lean ====
/-
  Region 2 of the idealized kernel program: the normalise-and-rectify call on its grid of ten points, stated at a
  parameter V — the buffer contents of the core when the region is entered — and at any float algebra F.

  Six windows. Window 0 is the current block of 5000 rows of the aggregated table; windows 1 to 4 are the four
  rows of 128 entries (mean, variance, scale, shift), whose block index is constant, so they are fetched at the
  first point only and stay in place afterwards; window 5 is the output block of 5000 rows.

  The body loads the five inputs (and also its output buffer, whose value it never uses) and stores ONE value over
  the whole output buffer: the payload of the loaded table block, variance row, mean row, scale row and shift row.
  So after the body every input buffer still holds its block and the output buffer holds that one store read back.

  Exported: the proof data dat2, its arrays A_eq2, the output's contents after2_5, and the body obligation
  body_obligation2.
-/
import proofs.«132631_j31903017074707_1_alg».proof.Proof.Gen.Kernel.Launch
import proofs.«132631_j31903017074707_1_alg».proof.Proof.Gen.Kernel.Skeleton
import proofs.«132631_j31903017074707_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- The block of window w at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Every input buffer holds its block at every point

  For proof data whose array is the entry contents and whose body leaves the block in place, the current buffer of an
  input window is the block of the point: where the window is fetched the fetch put it there, and where it is not
  the block index has not moved since the previous point, whose block the body left in place. Window 0 is fetched
  at every point; windows 1 to 4 only at the first, and the same argument covers all nine later points. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

/-- The whole block of 5000 rows. -/
abbrev normTabRect : Rect S5000x128 := Rect.unit (s := S5000x128) ![0, 0] S5000x128.size inb_S5000x128_S5000x128_0_0
/-- The whole row of 128 entries. -/
abbrev normRowRect : Rect S1x128 := Rect.unit (s := S1x128) ![0, 0] S1x128.size inb_S1x128_S1x128_0_0

/-! ## What the body leaves in the output buffer -/

/-- The output buffer after the body, from the five input blocks (a : the table block, μ : the mean row,
    σ2 : the variance row, γ : the scale row, β : the shift row): its one store, read back. The body loads the
    variance row before the mean row, and the payload takes them in that order. -/
def out2_5 (a : Vec F S5000x128 .f32) (μ σ2 γ β : Vec F S1x128 .f32) : Vec F S5000x128 .f32 :=
  View.canon [⟨normTabRect, k2_pay1 (View.ld a normTabRect) (View.ld σ2 normRowRect) (View.ld μ normRowRect) (View.ld γ normRowRect) (View.ld β normRowRect)⟩]

/-- The one store is over the whole buffer, so every index of the buffer lies in it. -/
theorem cover2_5 (p0 : Vec F S5000x128 .f32) (y : S5000x128.Idx) :
    ∃ pc ∈ ([⟨normTabRect, p0⟩] : List (View.Piece (Elt F) S5000x128 .f32)), y ∈ pc.1.set :=
  View.cover_of_tiled [⟨normTabRect, p0⟩] S5000x128.size (by rfl) y

/-! ## The body's triple -/

set_option maxHeartbeats 1000000 in
/-- The body on whole buffers — the five inputs' at known contents, the output's at anything — runs to a
    continuation that holds the inputs' as they were and the output's at out2_5 of the inputs'. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (a : Vec F S5000x128 .f32) (μ σ2 γ β : Vec F S1x128 .f32) (K : PUnit → sProp 𝕄) :
    iprop(owns (c : Thread nD τ) arg1 fullShare a ∗ owns (c : Thread nD τ) arg2 fullShare μ ∗ owns (c : Thread nD τ) arg3 fullShare σ2
        ∗ owns (c : Thread nD τ) arg4 fullShare γ ∗ owns (c : Thread nD τ) arg5 fullShare β ∗ (∃ d, owns (c : Thread nD τ) arg6 fullShare d)
        ∗ (iprop(owns (c : Thread nD τ) arg1 fullShare a ∗ owns (c : Thread nD τ) arg2 fullShare μ ∗ owns (c : Thread nD τ) arg3 fullShare σ2
            ∗ owns (c : Thread nD τ) arg4 fullShare γ ∗ owns (c : Thread nD τ) arg5 fullShare β
            ∗ owns (c : Thread nD τ) arg6 fullShare (out2_5 a μ σ2 γ β)) -∗ K ⟨⟩))
      ⊢ wp frame (wpE (defs₀ (F := F)) Variants.none c none) E
          (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The proof data of the region -/

/-- The proof data of the region on core c: the arrays as the region finds them; after the body at point t every
    input buffer at its block and the output buffer at out2_5 of the five input blocks; the invariant that of a
    body which touches nothing but its buffers; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The arrays of the proof data are the entry contents (the definition projected, the contents never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point t: the invariant, the owed cells, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies; the invariant and
    the owed cells pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The idealized kernel program's run, from the launch to the return, as host stretches and three kernel regions.
  Between two items the TensorCore's unscoped buffers hold a FOLD of the launch memory: a host stretch applies its
  operations, a kernel region replaces each of its output arrays by what its write-backs leave and keeps every other
  buffer. Each region is entered with the buffers at the fold's value there; its proof data are the region's own
  (the matmul's blocks, the statistics' two accumulators, the normalisation's blocks). At the end every unscoped
  buffer is read against the last value of the fold: the six argument arrays are the launch memory's, and the result
  array is what the last region's write-backs leave.
-/
import proofs.«132631_j31903017074707_1_alg».proof.Proof.KR0
import proofs.«132631_j31903017074707_1_alg».proof.Proof.KR1
import proofs.«132631_j31903017074707_1_alg».proof.Proof.KR2
import proofs.«132631_j31903017074707_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch (indices, degrees). -/
abbrev W1 : Dev nD → Valuation τ sig (Elt F) := fun c => StableHlo.after hostOps0 (W0 m c)
/-- After the select of the inverse square-root degrees. -/
abbrev W2 : Dev nD → Valuation τ sig (Elt F) := fun c => StableHlo.after hostOps0_1 (W1 m c)
/-- After the edge weights: the matmul region's entry. -/
abbrev W3 : Dev nD → Valuation τ sig (Elt F) := fun c => StableHlo.after hostOps0_2 (W2 m c)
abbrev B3 : (c : Dev nD) → (b : Ref sig .tc) → Buf (Elt F) ((c : Thread nD τ).loc b) := fun c b => W3 m c b
/-- After region 0: its arrays at what the pipeline leaves (an input as entered, an output at its write-backs folded),
    every other buffer as entered. -/
def W4 (c : Dev nD) : Valuation τ sig (Elt F) :=
  Pipeline.withArrays spec0 c (W3 m c) fun w => (dat0 (B3 m) c).arrAt w cfg0.N
theorem W4_arr (c : Dev nD) (w : Fin cfg0.W) :
    W4 m c (Proc.devRef .tc (Pipeline.arrRef spec0 w)) = (dat0 (B3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev B4 : (c : Dev nD) → (b : Ref sig .tc) → Buf (Elt F) ((c : Thread nD τ).loc b) := fun c b => W4 m c b
theorem hF0 (c : Dev nD) (w : Fin cfg0.W) : (dat0 (B3 m) c).arrAt w cfg0.N = B4 m c (Pipeline.arrRef spec0 w) :=
  (W4_arr m c w).symm
theorem hrest0 (c : Dev nD) : ∀ b, b ∉ Finset.univ.image (Pipeline.arrRef spec0) → B4 m c b = B3 m c b :=
  fun b hb => W4_of_ne m c b fun w e => hb (Finset.mem_image.mpr ⟨w, Finset.mem_univ _, e⟩)

/-- After the gather, scale, scatter-add and bias: the statistics region's entry. -/
abbrev W5 : Dev nD → Valuation τ sig (Elt F) := fun c => StableHlo.after hostOps1 (W4 m c)
abbrev B5 : (c : Dev nD) → (b : Ref sig .tc) → Buf (Elt F) ((c : Thread nD τ).loc b) := fun c b => W5 m c b
/-- After region 1: its arrays at what the pipeline leaves (an input as entered, an output at its write-backs folded),
    every other buffer as entered. -/
def W6 (c : Dev nD) : Valuation τ sig (Elt F) :=
  Pipeline.withArrays spec1 c (W5 m c) fun w => (dat1 (B5 m) c).arrAt w cfg1.N
theorem W6_arr (c : Dev nD) (w : Fin cfg1.W) :
    W6 m c (Proc.devRef .tc (Pipeline.arrRef spec1 w)) = (dat1 (B5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev B6 : (c : Dev nD) → (b : Ref sig .tc) → Buf (Elt F) ((c : Thread nD τ).loc b) := fun c b => W6 m c b
theorem hF1 (c : Dev nD) (w : Fin cfg1.W) : (dat1 (B5 m) c).arrAt w cfg1.N = B6 m c (Pipeline.arrRef spec1 w) :=
  (W6_arr m c w).symm
theorem hrest1 (c : Dev nD) : ∀ b, b ∉ Finset.univ.image (Pipeline.arrRef spec1) → B6 m c b = B5 m c b :=
  fun b hb => W6_of_ne m c b fun w e => hb (Finset.mem_image.mpr ⟨w, Finset.mem_univ _, e⟩)

/-- After the mean and the variance: the normalisation region's entry. -/
abbrev W7 : Dev nD → Valuation τ sig (Elt F) := fun c => StableHlo.after hostOps2 (W6 m c)
abbrev B7 : (c : Dev nD) → (b : Ref sig .tc) → Buf (Elt F) ((c : Thread nD τ).loc b) := fun c b => W7 m c b
/-- After region 2: its arrays at what the pipeline leaves (an input as entered, an output at its write-backs folded),
    every other buffer as entered. -/
def W8 (c : Dev nD) : Valuation τ sig (Elt F) :=
  Pipeline.withArrays spec2 c (W7 m c) fun w => (dat2 (B7 m) c).arrAt w cfg2.N
theorem W8_arr (c : Dev nD) (w : Fin cfg2.W) :
    W8 m c (Proc.devRef .tc (Pipeline.arrRef spec2 w)) = (dat2 (B7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev B8 : (c : Dev nD) → (b : Ref sig .tc) → Buf (Elt F) ((c : Thread nD τ).loc b) := fun c b => W8 m c b
theorem hF2 (c : Dev nD) (w : Fin cfg2.W) : (dat2 (B7 m) c).arrAt w cfg2.N = B8 m c (Pipeline.arrRef spec2 w) :=
  (W8_arr m c w).symm
theorem hrest2 (c : Dev nD) : ∀ b, b ∉ Finset.univ.image (Pipeline.arrRef spec2) → B8 m c b = B7 m c b :=
  fun b hb => W8_of_ne m c b fun w e => hb (Finset.mem_image.mpr ⟨w, Finset.mem_univ _, e⟩)

/-! ### The arguments end as launched: no host operation writes one, and a region reads it through an input window or not at all -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (B3 m) c).arrAt_in 0 rfl _).trans (A_eq0 (B3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := (W4_arr m c 1).trans (((dat0 (B3 m) c).arrAt_in 1 rfl _).trans (A_eq0 (B3 m) c 1))
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (B3 m) c
  | ⟨1, _⟩ => fun c => dat1 (B5 m) c
  | ⟨2, _⟩ => fun c => dat2 (B7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W8 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W3`, left with them at `W4`.
    Its arrays are split out of the unscoped buffers and put back at what the write-backs leave; the generator
    register goes into the kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (B3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B3 m c) (B4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W5`, left with them at `W6`.
    Its arrays are split out of the unscoped buffers and put back at what the write-backs leave; the generator
    register goes into the kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (B5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (B5 m) c)
    unfold Pipeline.ΦA
    iintro ⟨Hp, -, Hr⟩
    isplitl [Hr]; · iexact Hr
    iexact Hp
  hout c := by
    rw [Pipeline.ownSems0_none]
    refine BIBase.Entails.trans (hout1 (B5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B5 m c) (B6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W7`, left with them at `W8`.
    Its arrays are split out of the unscoped buffers and put back at what the write-backs leave; the generator
    register goes into the kernel's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (B7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B7 m c) (B8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

set_option backward.isDefEq.respectTransparency.types false in
/-- THE RUN. From any memory with zero counters every weakly fair execution of @main on the TensorCores terminates,
    nothing faulting, and in every final state each unscoped buffer of each core holds the last value of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

/-- The run with the result named: the result array ends at what the normalisation region's write-backs leave, and
    the arguments end as launched. -/
theorem run_result (ρ : Dev nD → PrngReg) : θ_run defs (onTc (τ := τ) (main (F := F))) ⟨m, fun _ => 0, ρ⟩ (fun r => ∀ c : Dev nD,
      r.2.mem ((c.tc : Thread nD τ).loc main_v57) = (dat2 (B7 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v57 (by decide))).trans (W8_arr m c 5),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

end Cert.Kernel.Hand

end
-- ==== Proof.R0.lean ====
/-
  Region 0 of the kernel program: the linear layer `h = x · Wᵀ`, computed block by block.  The grid has ten
  points; point `t` sees rows `5000·t … 5000·t + 4999` of `x` (window 0), the whole weight matrix `W`
  (window 1, whose block index never moves, so it is brought in once), and writes the matching rows of `h`
  (window 2).  Stated at a parameter `V`: the buffers' contents when the region is entered.

  What is proved here, for any float model `F`:
  * at every grid point each input window's current buffer holds that window's block of its array;
  * the body, run on such buffers, leaves in the output buffer the product block — the single store's payload
    `k0_pay1 (x block) (W)` — and leaves the inputs as they were;
  * hence the pipeline's body obligation for the proof data `dat0`.
-/
import proofs.«132631_j31903017074707_1_alg».proof.Proof.Gen.KernelIdeal.Launch
import proofs.«132631_j31903017074707_1_alg».proof.Proof.Gen.KernelIdeal.Skeleton
import proofs.«132631_j31903017074707_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at grid point `t`: the rows (for the weights: the whole matrix) that point sees, read
    off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` is in window 0's current buffer at every point (it is brought in at every point), for
    any proof data over `V`'s array whose body leaves that block where it is. -/
theorem xrows_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in window 1's buffer at every point although it is brought in at the first point only:
    its block index is constant, so at a later point the buffer still holds the previous point's block, which
    is this point's. -/
theorem weights_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole `[5000, 128]` buffer as a rectangle (the row block of `x`, and the row block of `h`). -/
abbrev rowsRect : Rect S5000x128 := Rect.unit (s := S5000x128) ![0, 0] S5000x128.size inb_S5000x128_S5000x128_0_0
/-- The whole `[128, 128]` buffer as a rectangle (the weights). -/
abbrev wgtRect : Rect S128x128 := Rect.unit (s := S128x128) ![0, 0] S128x128.size inb_S128x128_S128x128_0_0

/-! ## What the body leaves in the output buffer -/

/-- The output buffer after the body, from the two input blocks: one store of the whole buffer, whose payload
    is the product of the row block with the transposed weights (the skeleton's `k0_pay1`). -/
def hrows (x : Vec F S5000x128 .f32) (w : Vec F S128x128 .f32) : Vec F S5000x128 .bf16 :=
  View.canon [⟨rowsRect, k0_pay1 (View.ld x rowsRect) (View.ld w wgtRect)⟩]

/-- That one store covers the buffer. -/
theorem hrows_cover (p : Vec F S5000x128 .bf16) (y : S5000x128.Idx) :
    ∃ pc ∈ ([⟨rowsRect, p⟩] : List (View.Piece (Elt F) S5000x128 .bf16)), y ∈ pc.1.set :=
  View.cover_of_tiled [⟨rowsRect, p⟩] S5000x128.size (by rfl) y

/-! ## The body's triple -/

set_option maxHeartbeats 1000000 in
/-- The body on whole buffers — the inputs' reading `x` and `w`, the output's holding anything — runs to a
    state with the inputs untouched and the output at `hrows x w`.  It loads `x` and `w`, loads the output
    buffer too (a value it never uses, so the buffer's contents on entry do not matter), and stores the
    product over the whole output buffer. -/
theorem sound_matmul (c : Dev nD) (E : Set ℕ)
    (arg0 : Memref sig .tc .vmem S5000x128 .f32) (harg0 : arg0.IsWhole)
    (arg1 : Memref sig .tc .vmem S128x128 .f32) (harg1 : arg1.IsWhole)
    (arg2 : Memref sig .tc .vmem S5000x128 .bf16) (harg2 : arg2.IsWhole)
    (i : grid0.Coords) (x : Vec F S5000x128 .f32) (w : Vec F S128x128 .f32) (K : PUnit → sProp 𝕄) :
    iprop(owns (c : Thread nD τ) arg0 fullShare x ∗ owns (c : Thread nD τ) arg1 fullShare w
        ∗ (∃ d, owns (c : Thread nD τ) arg2 fullShare d)
        ∗ (iprop(owns (c : Thread nD τ) arg0 fullShare x ∗ owns (c : Thread nD τ) arg1 fullShare w
            ∗ owns (c : Thread nD τ) arg2 fullShare (hrows x w)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (hrows_cover _)

/-! ## The pipeline's proof data -/

/-- The proof data of this pipeline on core `c`: the arrays as the region finds them; after the body at point
    `t` the inputs' buffers still at their blocks and the output's at the product block; the invariant is the
    untouched rest; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hrows (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hrows (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  xrows_before_of V (dat0 V c) (A_eq0 V c 0) (after0_0 V c) t d
theorem before0_1 (c : Dev nD) (t : Fin cfg0.N) (d) : (dat0 V c).before 1 t d = iblk0 V c 1 t :=
  weights_before_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_matmul` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_matmul c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1.lean ====
/-
  REGION 1 of the kernel program: the batch-statistics reduction. A grid of ten points walks the table of
  aggregated features in blocks of 5000 rows; two scratch rows of 128 lanes carry, from point to point, the column
  sums and the column sums of squares of the rows seen so far. The body resets both rows to zero at the first point,
  adds the block's column sums (of the entries, of their squares) to them at every point, and at the last point copies
  them into the two [1,128] outputs, whose windows are idle everywhere else and written back at the last point only.

  This module states what the two scratch rows hold after each point as a recursion over the body's payloads
  (`stats_acc`), runs the body once per control case (first point, a middle point, last point), and assembles the
  pipeline's proof data `dat1` with its body obligation and the two entailments that tie its invariant to the
  region's at entry and exit.
-/
import proofs.«132631_j31903017074707_1_alg».proof.Proof.Gen.KernelIdeal.Launch
import proofs.«132631_j31903017074707_1_alg».proof.Proof.Gen.KernelIdeal.Skeleton
import proofs.«132631_j31903017074707_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branches, decided over the grid -/

/-- The condition of the body's first branch (the accumulators are reset): the grid coordinate is zero. -/
abbrev cond1_first (i : grid1.Coords) : Prop :=
  (Scalar.cmpi .ne (Scalar.extui (Scalar.cmpi .eq (BitVec.ofNat 32 (i 0).val) 0#32)) 0#32) = 1#1
/-- It holds at point 0 only. -/
theorem hcond1_first : ∀ t : Fin cfg1.N, cond1_first (grid1.coords t) ↔ t.val = 0 :=
  (by decide +kernel : ∀ t : Fin grid1.N, cond1_first (grid1.coords t) ↔ t.val = 0)
/-- The condition of the body's second branch (the accumulators are copied to the outputs): the grid coordinate is nine. -/
abbrev cond1_last (i : grid1.Coords) : Prop := k1_cond2 i = 1#1
/-- It holds at point 9 only. -/
theorem hcond1_last : ∀ t : Fin cfg1.N, cond1_last (grid1.coords t) ↔ t.val = 9 :=
  (by decide +kernel : ∀ t : Fin grid1.N, cond1_last (grid1.coords t) ↔ t.val = 9)

/-! ## Whole-buffer accesses -/

theorem stats_zeros : (![0, 0] : Fin 2 → Nat) = fun _ => 0 := funext fun a => by fin_cases a <;> rfl

/-- A buffer of any shape reads, after a last store through the whole-shape rectangle at zero offsets, what was stored. -/
theorem stats_read_writes_unit_zero {Val : EltTy → Type} {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The body's run, one triple per control case -/

set_option maxHeartbeats 1000000 in
/-- AT THE FIRST POINT (first branch taken, second not): from the input block `x0`, the two outputs' buffers at
    `y1`, `y2` (handed back untouched) and the two scratch buffers at anything, the body leaves the scratch buffers at
    the block's column sums added to the zero row and at the column sums of its squares added to the zero row: each
    scratch load after the reset store reads the zero row stored. -/
theorem stats_run_first (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond1_first i) (hc1 : ¬cond1_last i)
    (x0 : Vec F S5000x128 .f32) (y1 y2 : Vec F S1x128 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 (k1_pay1 (F := F)))
            ∗ owns (c : Thread nD τ) arg5 fullShare (k1_pay5 x0 (k1_pay2 (F := F)))) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H4]
  · iexists _; isplitr
    swap; · iexact H4
    ipureintro
    rw [stats_read_writes_unit_zero (S := S1x128) _ _ stats_zeros]
    unfold stats_run_first.sl.v5 stats_run_first.sl.H4_1
    rw [View.readAt_eq_ld, View.ld_unit_zero (S := S5000x128) stats_zeros, View.readCov_unit_zero (S := S1x128) _ stats_zeros]
  · iexists _; isplitr
    swap; · iexact H5
    ipureintro
    rw [stats_read_writes_unit_zero (S := S1x128) _ _ stats_zeros]
    unfold stats_run_first.sl.v12 stats_run_first.sl.H5_1
    rw [View.readAt_eq_ld, View.ld_unit_zero (S := S5000x128) stats_zeros, View.readCov_unit_zero (S := S1x128) _ stats_zeros]

set_option maxHeartbeats 1000000 in
/-- AT A MIDDLE POINT (neither branch taken): from the input block `x0`, the outputs' buffers at `y1`, `y2` (handed
    back untouched) and the scratch buffers at `s1`, `s2`, the body leaves the scratch buffers at the block's column
    sums added to `s1` and at the column sums of its squares added to `s2`. -/
theorem stats_run_middle (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_first i) (hc1 : ¬cond1_last i)
    (x0 : Vec F S5000x128 .f32) (y1 y2 s1 s2 : Vec F S1x128 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s1 ∗ owns (c : Thread nD τ) arg5 fullShare s2
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 s1)
            ∗ owns (c : Thread nD τ) arg5 fullShare (k1_pay5 x0 s2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H4]
  · iexists _; isplitr
    swap; · iexact H4
    ipureintro
    rw [stats_read_writes_unit_zero (S := S1x128) _ _ stats_zeros]
    simp only [View.readAt_eq_ld, View.ld_unit_zero (S := S5000x128) stats_zeros, View.ld_unit_zero (S := S1x128) stats_zeros]
  · iexists _; isplitr
    swap; · iexact H5
    ipureintro
    rw [stats_read_writes_unit_zero (S := S1x128) _ _ stats_zeros]
    simp only [View.readAt_eq_ld, View.ld_unit_zero (S := S5000x128) stats_zeros, View.ld_unit_zero (S := S1x128) stats_zeros]

set_option maxHeartbeats 1000000 in
/-- AT THE LAST POINT (first branch not taken, second taken): from the input block `x0`, the outputs' buffers at
    anything and the scratch buffers at `s1`, `s2`, the body leaves the scratch buffers at the block's column sums added
    to `s1` and at the column sums of its squares added to `s2`, and each output's buffer at a copy of its
    accumulator: the scratch load after the store reads the value stored. -/
theorem stats_run_last (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_first i) (hc1 : cond1_last i)
    (x0 : Vec F S5000x128 .f32) (s1 s2 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s1 ∗ owns (c : Thread nD τ) arg5 fullShare s2
        ∗ (iprop(owns (c : Thread nD τ) arg1 fullShare x0
            ∗ owns (c : Thread nD τ) arg2 fullShare (k1_pay4 x0 s1) ∗ owns (c : Thread nD τ) arg3 fullShare (k1_pay5 x0 s2)
            ∗ owns (c : Thread nD τ) arg4 fullShare (k1_pay4 x0 s1)
            ∗ owns (c : Thread nD τ) arg5 fullShare (k1_pay5 x0 s2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [stats_read_writes_unit_zero (S := S1x128) _ _ stats_zeros]
    unfold stats_run_last.sl.v23 stats_run_last.sl.H4_1
    rw [View.readCov_unit_zero (S := S1x128) _ stats_zeros]
    simp only [View.readAt_eq_ld, View.ld_unit_zero (S := S5000x128) stats_zeros, View.ld_unit_zero (S := S1x128) stats_zeros]
  isplitl [H2]
  · iexists _; isplitr
    swap; · iexact H2
    ipureintro
    rw [stats_read_writes_unit_zero (S := S1x128) _ _ stats_zeros]
    unfold stats_run_last.sl.v25 stats_run_last.sl.H5_1
    rw [View.readCov_unit_zero (S := S1x128) _ stats_zeros]
    simp only [View.readAt_eq_ld, View.ld_unit_zero (S := S5000x128) stats_zeros, View.ld_unit_zero (S := S1x128) stats_zeros]
  isplitl [H4]
  · iexists _; isplitr
    swap; · iexact H4
    ipureintro
    unfold stats_run_last.sl.H4_1
    rw [stats_read_writes_unit_zero (S := S1x128) _ _ stats_zeros]
    simp only [View.readAt_eq_ld, View.ld_unit_zero (S := S5000x128) stats_zeros, View.ld_unit_zero (S := S1x128) stats_zeros]
  · iexists _; isplitr
    swap; · iexact H5
    ipureintro
    unfold stats_run_last.sl.H5_1
    rw [stats_read_writes_unit_zero (S := S1x128) _ _ stats_zeros]
    simp only [View.readAt_eq_ld, View.ld_unit_zero (S := S5000x128) stats_zeros, View.ld_unit_zero (S := S1x128) stats_zeros]

/-! ## The region's data, at the contents `V` the region finds in the TensorCore's buffers -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table's window holds, at every point, the block of 5000 rows the point names, for any proof data whose array is the
    region-entry contents and whose body leaves the block in place: the window is an input, uncut and never idle. -/
theorem stats_rows_before_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two accumulators after each point -/

/-- THE ACCUMULATION. What the two scratch rows hold after the body at point `n`: (the column sums so far, the column
    sums of squares so far). After point 0 the first block's sums added to the zero row the reset stored; after point
    `n + 1` that block's sums added to what point `n` left. -/
def stats_acc (c : Dev nD) : (n : ℕ) → n < cfg1.N → Vec F S1x128 .f32 × Vec F S1x128 .f32
  | 0, hn => (k1_pay4 (iblk1 V c 0 ⟨0, hn⟩) (k1_pay1 (F := F)), k1_pay5 (iblk1 V c 0 ⟨0, hn⟩) (k1_pay2 (F := F)))
  | n + 1, hn => (k1_pay4 (iblk1 V c 0 ⟨n + 1, hn⟩) (stats_acc c n (Nat.lt_of_succ_lt hn)).1,
      k1_pay5 (iblk1 V c 0 ⟨n + 1, hn⟩) (stats_acc c n (Nat.lt_of_succ_lt hn)).2)

/-- `stats_acc` at the first point. -/
theorem stats_acc_zero (c : Dev nD) (t : Fin cfg1.N) (h0 : t.val = 0) :
    stats_acc V c t.val t.isLt = (k1_pay4 (iblk1 V c 0 t) (k1_pay1 (F := F)), k1_pay5 (iblk1 V c 0 t) (k1_pay2 (F := F))) := by
  obtain ⟨n, hn⟩ := t
  cases n with
  | zero => rfl
  | succ n => exact absurd h0 (Nat.succ_ne_zero n)

/-- `stats_acc` at a later point: this block's sums added to what the point before left. -/
theorem stats_acc_pos (c : Dev nD) (t : Fin cfg1.N) (h0 : t.val ≠ 0) :
    stats_acc V c t.val t.isLt
      = (k1_pay4 (iblk1 V c 0 t) (stats_acc V c (t.val - 1) (Nat.lt_of_le_of_lt (Nat.sub_le _ _) t.isLt)).1,
         k1_pay5 (iblk1 V c 0 t) (stats_acc V c (t.val - 1) (Nat.lt_of_le_of_lt (Nat.sub_le _ _) t.isLt)).2) := by
  obtain ⟨n, hn⟩ := t
  cases n with
  | zero => exact absurd rfl h0
  | succ n => rfl

theorem stats_acc_first_sum (c : Dev nD) (t : Fin cfg1.N) (h0 : t.val = 0) :
    (stats_acc V c t.val t.isLt).1 = k1_pay4 (iblk1 V c 0 t) (k1_pay1 (F := F)) := by
  obtain ⟨n, hn⟩ := t
  cases n with
  | zero => rfl
  | succ n => exact absurd h0 (Nat.succ_ne_zero n)

theorem stats_acc_first_sumsq (c : Dev nD) (t : Fin cfg1.N) (h0 : t.val = 0) :
    (stats_acc V c t.val t.isLt).2 = k1_pay5 (iblk1 V c 0 t) (k1_pay2 (F := F)) := by
  obtain ⟨n, hn⟩ := t
  cases n with
  | zero => rfl
  | succ n => exact absurd h0 (Nat.succ_ne_zero n)

theorem stats_acc_later_sum (c : Dev nD) (t : Fin cfg1.N) (h0 : t.val ≠ 0) :
    (stats_acc V c t.val t.isLt).1
      = k1_pay4 (iblk1 V c 0 t) (stats_acc V c (t.val - 1) (Nat.lt_of_le_of_lt (Nat.sub_le _ _) t.isLt)).1 := by
  obtain ⟨n, hn⟩ := t
  cases n with
  | zero => exact absurd rfl h0
  | succ n => rfl

theorem stats_acc_later_sumsq (c : Dev nD) (t : Fin cfg1.N) (h0 : t.val ≠ 0) :
    (stats_acc V c t.val t.isLt).2
      = k1_pay5 (iblk1 V c 0 t) (stats_acc V c (t.val - 1) (Nat.lt_of_le_of_lt (Nat.sub_le _ _) t.isLt)).2 := by
  obtain ⟨n, hn⟩ := t
  cases n with
  | zero => exact absurd rfl h0
  | succ n => rfl

/-! ## The invariant: where the two scratch rows are between points -/

/-- The two scratch operands: whole scoped buffers of the kernel's own. -/
abbrev stats_sc0 : Memref sig .tc .vmem S1x128 .f32 := Memref.whole cc1_scratch0
abbrev stats_sc1 : Memref sig .tc .vmem S1x128 .f32 := Memref.whole cc1_scratch1

/-- The core's scoped buffers that are neither a staging buffer of this call nor one of its two scratch rows. -/
abbrev stats_rest (c : Dev nD) : sProp 𝕄 :=
  Pipeline.scopedRestBut (Ix := Unit) (Name := ℕ) (U := UR sig nD τ) (Lvl := ℕ) (Val := Elt F) spec1 c [cc1_scratch0, cc1_scratch1]

/-- The region invariant before position `n`: before the first point every scoped buffer that is no staging buffer at
    anything and the generator register at some state; afterwards the two scratch rows at the accumulators the point
    before left, the other scoped buffers at anything, the generator register at some state. -/
def stats_Phi (c : Dev nD) : (n : ℕ) → n ≤ cfg1.N → sProp 𝕄
  | 0, _ => Pipeline.ΦA spec1 c
  | n + 1, hn => iprop(((owns (c : Thread nD τ) stats_sc0 fullShare (stats_acc V c n hn).1
      ∗ owns (c : Thread nD τ) stats_sc1 fullShare (stats_acc V c n hn).2) ∗ stats_rest c) ∗ (∃ r, prngReg c r))

theorem stats_Phi_zero (c : Dev nD) (n : ℕ) (h : n ≤ cfg1.N) (hz : n = 0) : stats_Phi V c n h = Pipeline.ΦA spec1 c := by
  subst hz; rfl

theorem stats_Phi_succ (c : Dev nD) (n : ℕ) (hn : n < cfg1.N) :
    stats_Phi V c (n + 1) hn = iprop(((owns (c : Thread nD τ) stats_sc0 fullShare (stats_acc V c n hn).1
      ∗ owns (c : Thread nD τ) stats_sc1 fullShare (stats_acc V c n hn).2) ∗ stats_rest c) ∗ (∃ r, prngReg c r)) := rfl

theorem stats_Phi_pos (c : Dev nD) (n : ℕ) (h : n ≤ cfg1.N) (hz : n ≠ 0) :
    stats_Phi V c n h = iprop(((owns (c : Thread nD τ) stats_sc0 fullShare (stats_acc V c (n - 1) (by omega)).1
      ∗ owns (c : Thread nD τ) stats_sc1 fullShare (stats_acc V c (n - 1) (by omega)).2) ∗ stats_rest c) ∗ (∃ r, prngReg c r)) := by
  cases n with
  | zero => exact absurd rfl hz
  | succ n => rfl

/-- The class's invariant with the two scratch rows split off, each a memref owned at some contents. -/
theorem stats_PhiA_eq (c : Dev nD) :
    (Pipeline.ΦA spec1 c : sProp 𝕄)
      = iprop((((∃ d, owns (c : Thread nD τ) stats_sc0 fullShare d) ∗ (∃ d, owns (c : Thread nD τ) stats_sc1 fullShare d))
          ∗ stats_rest c) ∗ (∃ r, prngReg c r)) := by
  unfold Pipeline.ΦA
  rw [Pipeline.scopedRest_split_of_list spec1 c [cc1_scratch0, cc1_scratch1] (by decide) (by decide)]
  simp only [bigSepL_cons_cons, bigSepL_singleton, stats_sc0, stats_sc1, owns_whole]; try rfl

/-! ## The pipeline's proof data -/

/-- The proof data of this pipeline on core `c`: the arrays as the region finds them; after the body at point `t` the
    table's window at its block and the two outputs' windows at the two accumulators (what the body stores there at the
    last point; at the other points the windows are idle and nothing reads this); the invariant `stats_Phi`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (stats_acc V c t.val t.isLt).1
    | ⟨2, _⟩ => (stats_acc V c t.val t.isLt).2
  Φ t := stats_Phi V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem stats_Phi_castSucc (c : Dev nD) (t : Fin cfg1.N) :
    (dat1 V c).Φ t.castSucc = stats_Phi V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (stats_acc V c t.val t.isLt).1 := by dsimp only [dat1]
theorem after1_2 (c : Dev nD) (t : Fin cfg1.N) : (dat1 V c).after 2 t = (stats_acc V c t.val t.isLt).2 := by dsimp only [dat1]

/-- The table's window holds its block at every point, fetched there or not. -/
theorem before1_0 (c : Dev nD) (t : Fin cfg1.N) (d) : (dat1 V c).before 0 t d = iblk1 V c 0 t :=
  stats_rows_before_of V (dat1 V c) (A_eq1 V c 0) (after1_0 V c) t d

/-! ## Where the windows are idle and where they are written back -/

/-- The table's window is never idle. -/
theorem stats_live_rows : ∀ t : Fin cfg1.N, cfg1.idle 0 (grid1.coords t) = false := by decide +kernel
/-- Off the last point the sums' window is idle and not written back; at the last point it is live. -/
theorem stats_idle_sum : ∀ t : Fin cfg1.N, ¬cond1_last (grid1.coords t) → cfg1.idle 1 (grid1.coords t) = true := by decide +kernel
theorem stats_noflush_sum : ∀ t : Fin cfg1.N, ¬cond1_last (grid1.coords t) → (cfg1.win 1).flush t = false := by decide +kernel
theorem stats_live_sum : ∀ t : Fin cfg1.N, cond1_last (grid1.coords t) → cfg1.idle 1 (grid1.coords t) = false := by decide +kernel
/-- The same of the sums of squares' window. -/
theorem stats_idle_sumsq : ∀ t : Fin cfg1.N, ¬cond1_last (grid1.coords t) → cfg1.idle 2 (grid1.coords t) = true := by decide +kernel
theorem stats_noflush_sumsq : ∀ t : Fin cfg1.N, ¬cond1_last (grid1.coords t) → (cfg1.win 2).flush t = false := by decide +kernel
theorem stats_live_sumsq : ∀ t : Fin cfg1.N, cond1_last (grid1.coords t) → cfg1.idle 2 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The table's window holds its block; the point's number says which control case it is in. At
    the first point the invariant hands the two scratch rows at anything and takes them back at the first block's sums
    over the zero row; at a later point it hands them at the accumulators the point before left and takes them back with
    this block's sums added. Off the last point the outputs' windows are idle and come back as handed; at the last point
    they come back holding the two accumulators. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = stats_Phi V c (t.val + 1) t.isLt from rfl, stats_Phi_succ]
  rw [show (dat1 V c).leavesExact 0 t = owns (c : Thread nD τ) (st1_0 t) fullShare ((dat1 V c).after 0 t) from by
    unfold Dat.leavesExact; rw [stats_live_rows t], after1_0]
  have hN : t.val < 10 := lt_of_lt_of_eq t.isLt (show cfg1.N = 10 from N_1)
  by_cases h0 : t.val = 0
  · have hc0 : cond1_first (grid1.coords t) := (hcond1_first t).mpr h0
    have hc1 : ¬cond1_last (grid1.coords t) := fun h => by have := (hcond1_last t).mp h; omega
    rw [Dat.leavesExact_idle (dat1 V c) 1 t (stats_idle_sum t hc1) (stats_noflush_sum t hc1),
      Dat.leavesExact_idle (dat1 V c) 2 t (stats_idle_sumsq t hc1) (stats_noflush_sumsq t hc1)]
    rw [stats_acc_first_sum V c t h0, stats_acc_first_sumsq V c t h0]
    rw [stats_Phi_castSucc V c t, stats_Phi_zero V c _ _ h0, stats_PhiA_eq]
    iintro ⟨⟨⟨⟨HS0, HS1⟩, HR⟩, Hg⟩, Ho, ⟨%d0, H0⟩, ⟨%d1, H1⟩, ⟨%d2, H2⟩⟩
    iapply (stats_run_first c Set.univ (grid1.coords t) _ _ _ _ _ _ _ _ _ _ hc0 hc1 (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexists _; iexact H1
    iexists _; iexact H2
  · have hc0 : ¬cond1_first (grid1.coords t) := fun h => h0 ((hcond1_first t).mp h)
    rw [stats_acc_later_sum V c t h0, stats_acc_later_sumsq V c t h0]
    rw [stats_Phi_castSucc V c t, stats_Phi_pos V c _ _ h0]
    by_cases h9 : t.val = 9
    · have hc1 : cond1_last (grid1.coords t) := (hcond1_last t).mpr h9
      rw [show (dat1 V c).leavesExact 1 t = owns (c : Thread nD τ) (st1_1 t) fullShare ((dat1 V c).after 1 t) from by
        unfold Dat.leavesExact; rw [stats_live_sum t hc1], after1_1]
      rw [show (dat1 V c).leavesExact 2 t = owns (c : Thread nD τ) (st1_2 t) fullShare ((dat1 V c).after 2 t) from by
        unfold Dat.leavesExact; rw [stats_live_sumsq t hc1], after1_2]
      rw [stats_acc_later_sum V c t h0, stats_acc_later_sumsq V c t h0]
      iintro ⟨⟨⟨⟨HS0, HS1⟩, HR⟩, Hg⟩, Ho, ⟨%d0, H0⟩, ⟨%d1, H1⟩, ⟨%d2, H2⟩⟩
      iapply (stats_run_last c Set.univ (grid1.coords t) _ _ _ _ _ _ _ _ _ _ hc0 hc1 (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexact H2
    · have hc1 : ¬cond1_last (grid1.coords t) := fun h => h9 ((hcond1_last t).mp h)
      rw [Dat.leavesExact_idle (dat1 V c) 1 t (stats_idle_sum t hc1) (stats_noflush_sum t hc1),
        Dat.leavesExact_idle (dat1 V c) 2 t (stats_idle_sumsq t hc1) (stats_noflush_sumsq t hc1)]
      iintro ⟨⟨⟨⟨HS0, HS1⟩, HR⟩, Hg⟩, Ho, ⟨%d0, H0⟩, ⟨%d1, H1⟩, ⟨%d2, H2⟩⟩
      iapply (stats_run_middle c Set.univ (grid1.coords t) _ _ _ _ _ _ _ _ _ _ hc0 hc1 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = stats_Phi V c 0 (Nat.zero_le _) from rfl, stats_Phi_zero V c 0 _ rfl]
  try exact Idealize.SL.BI.Entails.refl _

/-- After any point but the first the invariant gives the class's back: the accumulators' names are forgotten. -/
theorem stats_Phi_out (c : Dev nD) (t : Fin (cfg1.N + 1)) (ht : t.val ≠ 0) : (dat1 V c).Φ t ⊢ Pipeline.ΦA spec1 c := by
  rw [show (dat1 V c).Φ t = stats_Phi V c t.val (Nat.le_of_lt_succ t.isLt) from rfl, stats_Phi_pos V c _ _ ht, stats_PhiA_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout1 (c : Dev nD) : (dat1 V c).Φ (Fin.last cfg1.N) ⊢ Pipeline.ΦA spec1 c :=
  stats_Phi_out V c _ (by rw [Fin.val_last]; have : cfg1.N = 10 := N_1; omega)

end Cert.KernelIdeal.Hand

end
-- ==== Proof.R2.lean ====
/-
  Region 2 of the idealized kernel program: the normalise-and-rectify call on its grid of ten points, stated at a
  parameter V — the buffer contents of the core when the region is entered — and at any float algebra F.

  Six windows. Window 0 is the current block of 5000 rows of the aggregated table; windows 1 to 4 are the four
  rows of 128 entries (mean, variance, scale, shift), whose block index is constant, so they are fetched at the
  first point only and stay in place afterwards; window 5 is the output block of 5000 rows.

  The body loads the five inputs (and also its output buffer, whose value it never uses) and stores ONE value over
  the whole output buffer: the payload of the loaded table block, variance row, mean row, scale row and shift row.
  So after the body every input buffer still holds its block and the output buffer holds that one store read back.

  Exported: the proof data dat2, its arrays A_eq2, the output's contents after2_5, and the body obligation
  body_obligation2.
-/
import proofs.«132631_j31903017074707_1_alg».proof.Proof.Gen.KernelIdeal.Launch
import proofs.«132631_j31903017074707_1_alg».proof.Proof.Gen.KernelIdeal.Skeleton
import proofs.«132631_j31903017074707_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- The block of window w at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Every input buffer holds its block at every point

  For proof data whose array is the entry contents and whose body leaves the block in place, the current buffer of an
  input window is the block of the point: where the window is fetched the fetch put it there, and where it is not
  the block index has not moved since the previous point, whose block the body left in place. Window 0 is fetched
  at every point; windows 1 to 4 only at the first, and the same argument covers all nine later points. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

/-- The whole block of 5000 rows. -/
abbrev normTabRect : Rect S5000x128 := Rect.unit (s := S5000x128) ![0, 0] S5000x128.size inb_S5000x128_S5000x128_0_0
/-- The whole row of 128 entries. -/
abbrev normRowRect : Rect S1x128 := Rect.unit (s := S1x128) ![0, 0] S1x128.size inb_S1x128_S1x128_0_0

/-! ## What the body leaves in the output buffer -/

/-- The output buffer after the body, from the five input blocks (a : the table block, μ : the mean row,
    σ2 : the variance row, γ : the scale row, β : the shift row): its one store, read back. The body loads the
    variance row before the mean row, and the payload takes them in that order. -/
def out2_5 (a : Vec F S5000x128 .f32) (μ σ2 γ β : Vec F S1x128 .f32) : Vec F S5000x128 .f32 :=
  View.canon [⟨normTabRect, k2_pay1 (View.ld a normTabRect) (View.ld σ2 normRowRect) (View.ld μ normRowRect) (View.ld γ normRowRect) (View.ld β normRowRect)⟩]

/-- The one store is over the whole buffer, so every index of the buffer lies in it. -/
theorem cover2_5 (p0 : Vec F S5000x128 .f32) (y : S5000x128.Idx) :
    ∃ pc ∈ ([⟨normTabRect, p0⟩] : List (View.Piece (Elt F) S5000x128 .f32)), y ∈ pc.1.set :=
  View.cover_of_tiled [⟨normTabRect, p0⟩] S5000x128.size (by rfl) y

/-! ## The body's triple -/

set_option maxHeartbeats 1000000 in
/-- The body on whole buffers — the five inputs' at known contents, the output's at anything — runs to a
    continuation that holds the inputs' as they were and the output's at out2_5 of the inputs'. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (a : Vec F S5000x128 .f32) (μ σ2 γ β : Vec F S1x128 .f32) (K : PUnit → sProp 𝕄) :
    iprop(owns (c : Thread nD τ) arg1 fullShare a ∗ owns (c : Thread nD τ) arg2 fullShare μ ∗ owns (c : Thread nD τ) arg3 fullShare σ2
        ∗ owns (c : Thread nD τ) arg4 fullShare γ ∗ owns (c : Thread nD τ) arg5 fullShare β ∗ (∃ d, owns (c : Thread nD τ) arg6 fullShare d)
        ∗ (iprop(owns (c : Thread nD τ) arg1 fullShare a ∗ owns (c : Thread nD τ) arg2 fullShare μ ∗ owns (c : Thread nD τ) arg3 fullShare σ2
            ∗ owns (c : Thread nD τ) arg4 fullShare γ ∗ owns (c : Thread nD τ) arg5 fullShare β
            ∗ owns (c : Thread nD τ) arg6 fullShare (out2_5 a μ σ2 γ β)) -∗ K ⟨⟩))
      ⊢ wp frame (wpE (defs₀ (F := F)) Variants.none c none) E
          (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The proof data of the region -/

/-- The proof data of the region on core c: the arrays as the region finds them; after the body at point t every
    input buffer at its block and the output buffer at out2_5 of the five input blocks; the invariant that of a
    body which touches nothing but its buffers; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The arrays of the proof data are the entry contents (the definition projected, the contents never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point t: the invariant, the owed cells, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies; the invariant and
    the owed cells pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Run.lean ====
/-
  The idealized kernel program's run, from the launch to the return, as host stretches and three kernel regions.
  Between two items the TensorCore's unscoped buffers hold a FOLD of the launch memory: a host stretch applies its
  operations, a kernel region replaces each of its output arrays by what its write-backs leave and keeps every other
  buffer. Each region is entered with the buffers at the fold's value there; its proof data are the region's own
  (the matmul's blocks, the statistics' two accumulators, the normalisation's blocks). At the end every unscoped
  buffer is read against the last value of the fold: the six argument arrays are the launch memory's, and the result
  array is what the last region's write-backs leave.
-/
import proofs.«132631_j31903017074707_1_alg».proof.Proof.R0
import proofs.«132631_j31903017074707_1_alg».proof.Proof.R1
import proofs.«132631_j31903017074707_1_alg».proof.Proof.R2
import proofs.«132631_j31903017074707_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch (indices, degrees). -/
abbrev W1 : Dev nD → Valuation τ sig (Elt F) := fun c => StableHlo.after hostOps0 (W0 m c)
/-- After the select of the inverse square-root degrees. -/
abbrev W2 : Dev nD → Valuation τ sig (Elt F) := fun c => StableHlo.after hostOps0_1 (W1 m c)
/-- After the edge weights: the matmul region's entry. -/
abbrev W3 : Dev nD → Valuation τ sig (Elt F) := fun c => StableHlo.after hostOps0_2 (W2 m c)
abbrev B3 : (c : Dev nD) → (b : Ref sig .tc) → Buf (Elt F) ((c : Thread nD τ).loc b) := fun c b => W3 m c b
/-- After region 0: its arrays at what the pipeline leaves (an input as entered, an output at its write-backs folded),
    every other buffer as entered. -/
def W4 (c : Dev nD) : Valuation τ sig (Elt F) :=
  Pipeline.withArrays spec0 c (W3 m c) fun w => (dat0 (B3 m) c).arrAt w cfg0.N
theorem W4_arr (c : Dev nD) (w : Fin cfg0.W) :
    W4 m c (Proc.devRef .tc (Pipeline.arrRef spec0 w)) = (dat0 (B3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev B4 : (c : Dev nD) → (b : Ref sig .tc) → Buf (Elt F) ((c : Thread nD τ).loc b) := fun c b => W4 m c b
theorem hF0 (c : Dev nD) (w : Fin cfg0.W) : (dat0 (B3 m) c).arrAt w cfg0.N = B4 m c (Pipeline.arrRef spec0 w) :=
  (W4_arr m c w).symm
theorem hrest0 (c : Dev nD) : ∀ b, b ∉ Finset.univ.image (Pipeline.arrRef spec0) → B4 m c b = B3 m c b :=
  fun b hb => W4_of_ne m c b fun w e => hb (Finset.mem_image.mpr ⟨w, Finset.mem_univ _, e⟩)

/-- After the gather, scale, scatter-add and bias: the statistics region's entry. -/
abbrev W5 : Dev nD → Valuation τ sig (Elt F) := fun c => StableHlo.after hostOps1 (W4 m c)
abbrev B5 : (c : Dev nD) → (b : Ref sig .tc) → Buf (Elt F) ((c : Thread nD τ).loc b) := fun c b => W5 m c b
/-- After region 1: its arrays at what the pipeline leaves (an input as entered, an output at its write-backs folded),
    every other buffer as entered. -/
def W6 (c : Dev nD) : Valuation τ sig (Elt F) :=
  Pipeline.withArrays spec1 c (W5 m c) fun w => (dat1 (B5 m) c).arrAt w cfg1.N
theorem W6_arr (c : Dev nD) (w : Fin cfg1.W) :
    W6 m c (Proc.devRef .tc (Pipeline.arrRef spec1 w)) = (dat1 (B5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev B6 : (c : Dev nD) → (b : Ref sig .tc) → Buf (Elt F) ((c : Thread nD τ).loc b) := fun c b => W6 m c b
theorem hF1 (c : Dev nD) (w : Fin cfg1.W) : (dat1 (B5 m) c).arrAt w cfg1.N = B6 m c (Pipeline.arrRef spec1 w) :=
  (W6_arr m c w).symm
theorem hrest1 (c : Dev nD) : ∀ b, b ∉ Finset.univ.image (Pipeline.arrRef spec1) → B6 m c b = B5 m c b :=
  fun b hb => W6_of_ne m c b fun w e => hb (Finset.mem_image.mpr ⟨w, Finset.mem_univ _, e⟩)

/-- After the mean and the variance: the normalisation region's entry. -/
abbrev W7 : Dev nD → Valuation τ sig (Elt F) := fun c => StableHlo.after hostOps2 (W6 m c)
abbrev B7 : (c : Dev nD) → (b : Ref sig .tc) → Buf (Elt F) ((c : Thread nD τ).loc b) := fun c b => W7 m c b
/-- After region 2: its arrays at what the pipeline leaves (an input as entered, an output at its write-backs folded),
    every other buffer as entered. -/
def W8 (c : Dev nD) : Valuation τ sig (Elt F) :=
  Pipeline.withArrays spec2 c (W7 m c) fun w => (dat2 (B7 m) c).arrAt w cfg2.N
theorem W8_arr (c : Dev nD) (w : Fin cfg2.W) :
    W8 m c (Proc.devRef .tc (Pipeline.arrRef spec2 w)) = (dat2 (B7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev B8 : (c : Dev nD) → (b : Ref sig .tc) → Buf (Elt F) ((c : Thread nD τ).loc b) := fun c b => W8 m c b
theorem hF2 (c : Dev nD) (w : Fin cfg2.W) : (dat2 (B7 m) c).arrAt w cfg2.N = B8 m c (Pipeline.arrRef spec2 w) :=
  (W8_arr m c w).symm
theorem hrest2 (c : Dev nD) : ∀ b, b ∉ Finset.univ.image (Pipeline.arrRef spec2) → B8 m c b = B7 m c b :=
  fun b hb => W8_of_ne m c b fun w e => hb (Finset.mem_image.mpr ⟨w, Finset.mem_univ _, e⟩)

/-! ### The arguments end as launched: no host operation writes one, and a region reads it through an input window or not at all -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (B3 m) c).arrAt_in 0 rfl _).trans (A_eq0 (B3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := (W4_arr m c 1).trans (((dat0 (B3 m) c).arrAt_in 1 rfl _).trans (A_eq0 (B3 m) c 1))
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (B3 m) c
  | ⟨1, _⟩ => fun c => dat1 (B5 m) c
  | ⟨2, _⟩ => fun c => dat2 (B7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W8 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W3`, left with them at `W4`.
    Its arrays are split out of the unscoped buffers and put back at what the write-backs leave; the generator
    register goes into the kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (B3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B3 m c) (B4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W5`, left with them at `W6`.
    Its arrays are split out of the unscoped buffers and put back at what the write-backs leave; the generator
    register goes into the kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (B5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (B5 m) c)
    unfold Pipeline.ΦA
    iintro ⟨Hp, -, Hr⟩
    isplitl [Hr]; · iexact Hr
    iexact Hp
  hout c := by
    rw [Pipeline.ownSems0_none]
    refine BIBase.Entails.trans (hout1 (B5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B5 m c) (B6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W7`, left with them at `W8`.
    Its arrays are split out of the unscoped buffers and put back at what the write-backs leave; the generator
    register goes into the kernel's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (B7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B7 m c) (B8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

set_option backward.isDefEq.respectTransparency.types false in
/-- THE RUN. From any memory with zero counters every weakly fair execution of @main on the TensorCores terminates,
    nothing faulting, and in every final state each unscoped buffer of each core holds the last value of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

/-- The run with the result named: the result array ends at what the normalisation region's write-backs leave, and
    the arguments end as launched. -/
theorem run_result (ρ : Dev nD → PrngReg) : θ_run defs (onTc (τ := τ) (main (F := F))) ⟨m, fun _ => 0, ρ⟩ (fun r => ∀ c : Dev nD,
      r.2.mem ((c.tc : Thread nD τ).loc main_v57) = (dat2 (B7 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v57 (by decide))).trans (W8_arr m c 5),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

end Cert.KernelIdeal.Hand

end
-- ==== Proof.Spec.lean ====
/-
  The mathematics both programs compute, index by index over the extended reals, for a table
  `a : [50000, 128]` of aggregated node features:
  * the column sum `colSum a j = Σ_r a[r, j]`, the column mean `colSum a j / 50000`;
  * the variance as SECOND MOMENT MINUS SQUARED MEAN, `Σ_r a[r,j]² / 50000 − mean²`, and as the
    MEAN OF CENTRED SQUARES, `Σ_r (a[r,j] − mean)² / 50000` (equal when every entry is a real number);
  * the normalisation `max (((a − μ) · rsqrt (σ² + ε)) · γ + β) 0`.
  The count `50000.0` and the epsilon are kept as their f32 words read at the ideal instance.
-/
import Idealize.ShloMosaic.PureOps.Ideal
import Idealize.ShloMosaic.Lib.ValueIdx

noncomputable section

open scoped BigOperators

namespace Cert.Spec

open Idealize.ShloMosaic Idealize.ShloMosaic.ValueIdx

/-- A `[50000, 128]` table of extended reals. -/
abbrev Tab : Type := (⟨2, ![50000, 128]⟩ : Shape).Idx → EReal
/-- A `[1, 128]` row of extended reals. -/
abbrev Row : Type := (⟨2, ![1, 128]⟩ : Shape).Idx → EReal

/-- The f32 word of `50000.0` at the ideal instance. -/
def cnt : EReal := Ideal.ofBits .f32 0x47435000#32
/-- The f32 word of the batch-norm epsilon at the ideal instance. -/
def eps : EReal := Ideal.ofBits .f32 0x3727C5AC#32

/-- Every entry of the table is a real number. -/
def IsReal {S : Shape} (a : S.Idx → EReal) : Prop := ∀ i, ∃ r : ℝ, a i = (r : EReal)

/-- The sum of column `j`. -/
def colSum (a : Tab) (j : Fin 128) : EReal := ∑ r : Fin 50000, a (ix2 r j)
/-- The sum of the squares of column `j`. -/
def colSumSq (a : Tab) (j : Fin 128) : EReal := ∑ r : Fin 50000, a (ix2 r j) * a (ix2 r j)
/-- The mean of column `j`. -/
def mean (a : Tab) (j : Fin 128) : EReal := Ideal.div (colSum a j) cnt
/-- The variance of column `j` as the second moment less the squared mean. -/
def varMoments (a : Tab) (j : Fin 128) : EReal := Ideal.div (colSumSq a j) cnt - mean a j * mean a j
/-- The variance of column `j` as the mean of the centred squares. -/
def varCentred (a : Tab) (j : Fin 128) : EReal :=
  Ideal.div (∑ r : Fin 50000, (a (ix2 r j) - mean a j) * (a (ix2 r j) - mean a j)) cnt
/-- A `[128, 128]` weight matrix of extended reals. -/
abbrev Wgt : Type := (⟨2, ![128, 128]⟩ : Shape).Idx → EReal
/-- The linear layer `x · Wᵀ`: entry `[r, j]` is `Σ_k x[r, k] · W[j, k]`. -/
def matT (x : Tab) (w : Wgt) : Tab := fun q => ∑ k : Fin 128, x (ix2 (q 0) k) * w (ix2 (q 1) k)
/-- Batch normalisation followed by the rectifier, at one entry. -/
def bnRelu (a : Tab) (μ σ2 γ β : Fin 128 → EReal) : Tab :=
  fun q => max (((a q - μ (q 1)) * Ideal.rsqrt (σ2 (q 1) + eps)) * γ (q 1) + β (q 1)) 0

end Cert.Spec

end
-- ==== Proof.Value0.lean ====
/-
  What region 0 leaves in the array of `h`, at the ideal instance: the whole-array function
  `Cert.Spec.matT x W`, entry `[r, j] = Σ_k x[r, k] · W[j, k]`.

  * The body's payload at an index.  The block product is a matrix-unit product into the zero accumulator of
    the row block (narrowed, which over the extended reals changes nothing) with the TRANSPOSE of the
    (narrowed) weights, narrowed again: at `[p, q]` it is `Σ_k x[p, k] · W[q, k]`.
  * From blocks to the array.  At grid point `t` the row block of `x` is rows `5000·t + p` of the array, the
    weights' block is the whole matrix, and the output block sits at rows `5000·t + p` of `h`; so what point
    `t` writes back is block `t` of `matT x W`.  Row `r` of `h` is in the block of point `r / 5000`, so the
    ten blocks cover the array and it ends holding `matT x W`.
-/
import proofs.«132631_j31903017074707_1_alg».proof.Proof.R0
import proofs.«132631_j31903017074707_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block product at an index -/

/-- The output's row coordinate is the left operand's row coordinate; -/
theorem lhs_rows_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column coordinate is the summation index; -/
theorem lhs_rows_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's row coordinate is the summation index; -/
theorem rhs_wgt_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and its column coordinate is the output's column coordinate. -/
theorem rhs_wgt_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at `[p, q]`: `Σ_k x[p, k] · w[q, k]`.  The narrowings are the identity on extended reals,
    the accumulator is zero, and the transposed weights at `[k, q]` are the weights at `[q, k]`. -/
theorem blockProduct_apply (x : Vec Ideal S5000x128 .f32) (w : Vec Ideal S128x128 .f32) (p : Fin 5000) (q : Fin 128) :
    (k0_pay1 (F := Ideal) x w) (ix2 p q) = ∑ k : Fin 128, x (ix2 p k) * w (ix2 q k) := by
  unfold k0_pay1
  show FloatOps.matmul dot_S5000x128_S128x128_S5000x128_1_0_0_1_n_n none (truncf (F := Ideal) .bf16 x bitsLt_bf16_f32)
      (transpose S128x128 [1, 0] (truncf (F := Ideal) .bf16 w bitsLt_bf16_f32) transposes_S128x128_p1_0_S128x128)
      (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_wgt_0 _ _).trans hk
    | ⟨1, _⟩ => exact rhs_wgt_1 _ _)
  rw [el, er, truncf_apply,
    transpose_apply [1, 0] (truncf (F := Ideal) .bf16 w bitsLt_bf16_f32) transposes_S128x128_p1_0_S128x128 (ix2 k q) (ix2 q k) (fun b => match b with
      | ⟨0, _⟩ => rfl
      | ⟨1, _⟩ => rfl),
    truncf_apply]

/-- So a function on the block whose value at `[p, q]` is that sum IS the block product. -/
theorem blockProduct_eq (x : Vec Ideal S5000x128 .f32) (w : Vec Ideal S128x128 .f32) (G : S5000x128.Idx → EReal)
    (h : ∀ (p : Fin 5000) (q : Fin 128), G (ix2 p q) = ∑ k : Fin 128, x (ix2 p k) * w (ix2 q k)) :
    k0_pay1 (F := Ideal) x w = G := by
  funext j
  obtain ⟨p, q, rfl⟩ : ∃ (p : Fin 5000) (q : Fin 128), j = ix2 p q := ⟨j 0, j 1, eq_ix2 j⟩
  rw [blockProduct_apply, h]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: at point `t` the row blocks of `x` and of `h` are block `t` along the rows,
    block 0 along the columns; the weights' block is block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block of `x` at point `t`, at `[p, k]`, is the array at row `5000·t + p`, column `k`. -/
theorem xrows_apply (c : Dev nD) (t : Fin cfg0.N) (p : Fin 5000) (k : Fin 128) (i : S50000x128.Idx)
    (h0 : (i 0).val = 5000 * t.val + p.val) (h1 : (i 1).val = k.val) :
    (iblk0 V c 0 t : Vec Ideal S5000x128 .f32) (ix2 p k) = (V c main_arg0 : S50000x128.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The weights' block at any point, at `[q, k]`, is the matrix at `[q, k]`. -/
theorem weights_apply (c : Dev nD) (t : Fin cfg0.N) (q k : Fin 128) (i : S128x128.Idx)
    (h0 : (i 0).val = q.val) (h1 : (i 1).val = k.val) :
    (iblk0 V c 1 t : Vec Ideal S128x128 .f32) (ix2 q k) = (V c main_arg2 : S128x128.Idx → EReal) i := by
  obtain ⟨-, -, e2, e3, -⟩ := block_indices t
  unfold iblk0
  rw [View.read_apply]
  show V c main_arg2 _ = V c main_arg2 _
  congr 1
  funext a
  apply Fin.ext
  match a with
  | ⟨0, _⟩ => show win0_1.index t (0 : Fin 2) * 128 + 1 * q.val = (i 0).val; rw [e2, h0]; omega
  | ⟨1, _⟩ => show win0_1.index t (1 : Fin 2) * 128 + 1 * k.val = (i 1).val; rw [e3, h1]; omega

/-- WHAT POINT `t` WRITES BACK is block `t` of `matT x W` of the arrays as the region finds them. -/
theorem flushed0_eq (c : Dev nD) (t : Fin cfg0.N) :
    (dat0 V c).flushed 2 t = ((cfg0.win 2).blk t).view.read (Elt Ideal) (Cert.Spec.matT (V c main_arg0) (V c main_arg2)) := by
  show (cfg0.win 2).cut (grid0.coords t) ((dat0 V c).after 2 t) = _
  rw [after0_2]
  unfold hrows
  rw [View.canon_unit_zero zero_offsets]
  simp only [View.ld_unit_zero (S := S5000x128) zero_offsets, View.ld_unit_zero (S := S128x128) zero_offsets]
  refine blockProduct_eq _ _ _ fun p q => ?_
  obtain ⟨-, -, -, -, e4, e5⟩ := block_indices t
  rw [View.read_apply]
  show Cert.Spec.matT (V c main_arg0) (V c main_arg2) (((cfg0.win 2).blk t).view.emb (ix2 p q)) = _
  have he0 : ((((cfg0.win 2).blk t).view.emb (ix2 p q)) 0).val = 5000 * t.val + p.val := by
    show win0_2.index t (0 : Fin 2) * 5000 + 1 * p.val = _; rw [e4]; omega
  have he1 : ((((cfg0.win 2).blk t).view.emb (ix2 p q)) 1).val = q.val := by
    show win0_2.index t (1 : Fin 2) * 128 + 1 * q.val = _; rw [e5]; omega
  unfold Cert.Spec.matT
  refine Finset.sum_congr rfl fun k _ => ?_
  rw [xrows_apply V c t p k (ix2 ((((cfg0.win 2).blk t).view.emb (ix2 p q)) 0) k) he0 rfl,
    weights_apply V c t q k (ix2 ((((cfg0.win 2).blk t).view.emb (ix2 p q)) 1) k) he1 rfl]

/-- An index of `h`'s array is in point `t`'s block iff each coordinate is in the block's range on its axis. -/
theorem mem_hblock (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of `h` is in the block of point `r / 5000`, which writes back: the ten blocks cover the array. -/
theorem hblocks_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_2 _, ?_⟩
  obtain ⟨-, -, -, -, e4, e5⟩ := block_indices ⟨(i 0).val / 5000, ht⟩
  rw [mem_hblock]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- THE ARRAY of `h` after the region: `matT` of the arrays of `x` and `W` as the region finds them. -/
theorem final0 (c : Dev nD) :
    (((dat0 (F := Ideal) V c).arrAt 2 cfg0.N) : S50000x128.Idx → EReal) = Cert.Spec.matT (V c main_arg0) (V c main_arg2) :=
  (dat0 V c).arrAt_eq_of_cover 2 (Cert.Spec.matT (V c main_arg0) (V c main_arg2)) (fun t _ => flushed0_eq V c t) hblocks_cover

end Cert.KernelIdeal.Hand

end
-- ==== Proof.Value1.lean ====
/-
  What region 1 leaves in its two output arrays, at the ideal instance: the column sums `Σ_r a[r, j]` and the
  column sums of squares `Σ_r a[r, j]²` of the table `a` (50000 rows, 128 columns) the region finds.

  * The body's payloads at an index.  A point adds to each of two running rows the column sums of its block of
    5000 rows (of the block itself, and of its squares); the first point starts both rows from zero.
  * The running rows by induction on the grid point: after point `n` they hold the block sums of blocks
    `0 … n` added up.  Over the extended reals addition is commutative and associative, so after the tenth point
    they hold the sums over all 50000 rows (a sum over the rows is the sum over the ten blocks of the sums over
    each block's rows).
  * From blocks to the arrays.  Only the last point writes the outputs back; each output's block is its whole
    `[1, 128]` array, and what is written is a copy of the running row.
-/
import proofs.«132631_j31903017074707_1_alg».proof.Proof.R1
import proofs.«132631_j31903017074707_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## Sums over the rows, block by block -/

/-- A sum over the 50000 rows is the sum over the ten blocks of the sums over each block's 5000 rows. -/
theorem sum_rows_blocks {M : Type*} [AddCommMonoid M] (f : Fin 50000 → M) :
    ∑ r : Fin 50000, f r
      = ∑ t : Fin 10, ∑ p : Fin 5000, f ⟨5000 * t.val + p.val, by have := t.isLt; have := p.isLt; omega⟩ := by
  rw [← Equiv.sum_comp (finProdFinEquiv : Fin 10 × Fin 5000 ≃ Fin 50000) f, Fintype.sum_prod_type]
  refine Finset.sum_congr rfl fun t _ => Finset.sum_congr rfl fun p _ => congrArg f (Fin.ext ?_)
  show p.val + 5000 * t.val = 5000 * t.val + p.val
  omega

/-! ## The body's payloads at an index -/

/-- The column sums of a `[5000, 128]` block: the reduction over the rows, at lane `j`. -/
theorem rowReduce_apply (v : FVec Ideal S5000x128 .f32) (j : Fin 128) :
    multiReduction (F := Ideal) .add [0] S128 v 0x00000000#32 reduces_S5000x128_S128 (.inl rfl) rfl (ix1 j)
      = ∑ p : Fin 5000, v (ix2 p j) := by
  refine (Ideal.multiReduction_add_single v 0x00000000#32 reduces_S5000x128_S128 (.inl rfl) rfl (ix1 j)).trans ?_
  show ∑ p : Fin 5000, v (reduces_S5000x128_S128.lift (ix1 j) p) = _
  refine Finset.sum_congr rfl fun p _ => congrArg v (funext fun a => Fin.ext ?_)
  match a with
  | ⟨0, _⟩ => rfl
  | ⟨1, _⟩ => rfl

/-- The zero the first point stores into the running column sums. -/
theorem zeroSum_apply (i : S1x128.Idx) : (k1_pay1 (F := Ideal)) i = 0 := by
  unfold k1_pay1
  rw [shapeCast_self]
  exact Ideal.ofBits_zero_f32

/-- The zero the first point stores into the running column sums of squares. -/
theorem zeroSq_apply (i : S1x128.Idx) : (k1_pay2 (F := Ideal)) i = 0 := by
  unfold k1_pay2
  rw [shapeCast_self]
  exact Ideal.ofBits_zero_f32

/-- One point's step of the running column sums: what was there plus the block's column sum. -/
theorem sumStep_apply (x : Vec Ideal S5000x128 .f32) (acc : Vec Ideal S1x128 .f32) (u : Fin 1) (j : Fin 128) :
    k1_pay4 (F := Ideal) x acc (ix2 u j) = acc (ix2 u j) + ∑ p : Fin 5000, x (ix2 p j) := by
  unfold k1_pay4 k1_pay3
  simp only [shapeCast_self]
  rw [addf_apply, shapeCast_a_1a_apply, rowReduce_apply]

/-- One point's step of the running column sums of squares. -/
theorem sqStep_apply (x : Vec Ideal S5000x128 .f32) (acc : Vec Ideal S1x128 .f32) (u : Fin 1) (j : Fin 128) :
    k1_pay5 (F := Ideal) x acc (ix2 u j) = acc (ix2 u j) + ∑ p : Fin 5000, x (ix2 p j) * x (ix2 p j) := by
  unfold k1_pay5 k1_pay3
  simp only [shapeCast_self]
  rw [addf_apply, shapeCast_a_1a_apply, rowReduce_apply]
  rfl

/-- The index maps of the statistics pipeline over the grid: at point `t` the table's block is block `t` along the
    rows; each output's block is block `(0, 0)`, its whole array. -/
theorem stats_block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- An index of the column sums' array is in point `t`'s block iff each coordinate is in the block's range. -/
theorem mem_sumblock (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v48_0).slice (win1_1.rect t)).set ↔ _
  rw [View.set_slice_whole, Rect.mem_set_unit]
  exact Iff.rfl

/-- The same for the array of the column sums of squares. -/
theorem mem_sqblock (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v48_1).slice (win1_2.rect t)).set ↔ _
  rw [View.set_slice_whole, Rect.mem_set_unit]
  exact Iff.rfl

/-- The last point writes the column sums back, and its block is the whole `[1, 128]` array. -/
theorem sum_cover (i : S1x128.Idx) :
    ∃ t : Fin cfg1.N, (cfg1.win 1).flush t = true ∧ i ∈ ((cfg1.win 1).blk t).view.set := by
  have hi0 : (i 0).val < 1 := (i 0).isLt
  have hi1 : (i 1).val < 128 := (i 1).isLt
  refine ⟨t1_9, (flush1_1 t1_9).mpr rfl, ?_⟩
  obtain ⟨-, -, e2, e3, -, -⟩ := stats_block_indices t1_9
  rw [mem_sumblock]
  intro a
  match a with
  | ⟨0, _⟩ =>
    show win1_1.index t1_9 (0 : Fin 2) * 1 ≤ (i 0).val ∧ (i 0).val < win1_1.index t1_9 (0 : Fin 2) * 1 + 1
    rw [e2]; omega
  | ⟨1, _⟩ =>
    show win1_1.index t1_9 (1 : Fin 2) * 128 ≤ (i 1).val ∧ (i 1).val < win1_1.index t1_9 (1 : Fin 2) * 128 + 128
    rw [e3]; omega

/-- Likewise the column sums of squares. -/
theorem sq_cover (i : S1x128.Idx) :
    ∃ t : Fin cfg1.N, (cfg1.win 2).flush t = true ∧ i ∈ ((cfg1.win 2).blk t).view.set := by
  have hi0 : (i 0).val < 1 := (i 0).isLt
  have hi1 : (i 1).val < 128 := (i 1).isLt
  refine ⟨t1_9, (flush1_2 t1_9).mpr rfl, ?_⟩
  obtain ⟨-, -, -, -, e4, e5⟩ := stats_block_indices t1_9
  rw [mem_sqblock]
  intro a
  match a with
  | ⟨0, _⟩ =>
    show win1_2.index t1_9 (0 : Fin 2) * 1 ≤ (i 0).val ∧ (i 0).val < win1_2.index t1_9 (0 : Fin 2) * 1 + 1
    rw [e4]; omega
  | ⟨1, _⟩ =>
    show win1_2.index t1_9 (1 : Fin 2) * 128 ≤ (i 1).val ∧ (i 1).val < win1_2.index t1_9 (1 : Fin 2) * 128 + 128
    rw [e5]; omega

/-- A flushing point of either output is the last point. -/
theorem sum_flush_last (t : Fin cfg1.N) (hf : (cfg1.win 1).flush t = true) : t = t1_9 := by
  have hN : cfg1.N = 10 := N_1
  have h9 : t.val = 9 := by have := (flush1_1 t).mp hf; have := t.isLt; omega
  exact Fin.ext h9
theorem sq_flush_last (t : Fin cfg1.N) (hf : (cfg1.win 2).flush t = true) : t = t1_9 := by
  have hN : cfg1.N = 10 := N_1
  have h9 : t.val = 9 := by have := (flush1_2 t).mp hf; have := t.isLt; omega
  exact Fin.ext h9

/-! ## The running column sums after each point -/

variable (V : (c : Dev nD) → (b : Ref sig .tc) → Buf (Elt Ideal) ((c : Thread nD τ).loc b))

/-- The table's row block at point `t`, at `[p, j]`, is the table at row `5000·t + p`, column `j`. -/
theorem tableRows_apply (c : Dev nD) (t : Fin cfg1.N) (p : Fin 5000) (j : Fin 128) (i : S50000x128.Idx)
    (h0 : (i 0).val = 5000 * t.val + p.val) (h1 : (i 1).val = j.val) :
    (iblk1 V c 0 t : Vec Ideal S5000x128 .f32) (ix2 p j) = (V c main_v47 : S50000x128.Idx → EReal) i := by
  obtain ⟨e0, e1, -⟩ := stats_block_indices t
  unfold iblk1
  rw [View.read_apply]
  show V c main_v47 _ = V c main_v47 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 128 + 1 * j.val = (i 1).val; rw [e1, h1]; omega

/-- Column `j` summed over the rows of block `t` of a table (zero past the tenth block). -/
def blockColSum (a : Cert.Spec.Tab) (j : Fin 128) (t : ℕ) : EReal :=
  if h : t < 10 then ∑ p : Fin 5000, a (ix2 ⟨5000 * t + p.val, by have := p.isLt; omega⟩ j) else 0
/-- The squares of column `j` summed over the rows of block `t`. -/
def blockColSumSq (a : Cert.Spec.Tab) (j : Fin 128) (t : ℕ) : EReal :=
  if h : t < 10 then ∑ p : Fin 5000, a (ix2 ⟨5000 * t + p.val, by have := p.isLt; omega⟩ j) * a (ix2 ⟨5000 * t + p.val, by have := p.isLt; omega⟩ j) else 0

/-- The ten block sums make the column sum; -/
theorem blockColSum_total (a : Cert.Spec.Tab) (j : Fin 128) :
    ∑ t ∈ Finset.range 10, blockColSum a j t = Cert.Spec.colSum a j := by
  unfold Cert.Spec.colSum
  rw [sum_rows_blocks (fun r => a (ix2 r j)), ← Fin.sum_univ_eq_sum_range (fun t => blockColSum a j t) 10]
  refine Finset.sum_congr rfl fun t _ => ?_
  unfold blockColSum
  rw [dif_pos t.isLt]
/-- and likewise for the squares. -/
theorem blockColSumSq_total (a : Cert.Spec.Tab) (j : Fin 128) :
    ∑ t ∈ Finset.range 10, blockColSumSq a j t = Cert.Spec.colSumSq a j := by
  unfold Cert.Spec.colSumSq
  rw [sum_rows_blocks (fun r => a (ix2 r j) * a (ix2 r j)), ← Fin.sum_univ_eq_sum_range (fun t => blockColSumSq a j t) 10]
  refine Finset.sum_congr rfl fun t _ => ?_
  unfold blockColSumSq
  rw [dif_pos t.isLt]

/-- A `[5000, 128]` block that reads rows `5000·n + p` of a table has column sum `blockColSum` of the table at `n`; -/
theorem colSum_of_rows (x : Vec Ideal S5000x128 .f32) (a : Cert.Spec.Tab) (j : Fin 128) (n : ℕ) (hn : n < 10)
    (hx : ∀ p : Fin 5000, x (ix2 p j) = a (ix2 ⟨5000 * n + p.val, by have := p.isLt; omega⟩ j)) :
    ∑ p : Fin 5000, x (ix2 p j) = blockColSum a j n := by
  unfold blockColSum
  rw [dif_pos hn]
  exact Finset.sum_congr rfl fun p _ => hx p
/-- and its squares' column sum is `blockColSumSq`. -/
theorem colSumSq_of_rows (x : Vec Ideal S5000x128 .f32) (a : Cert.Spec.Tab) (j : Fin 128) (n : ℕ) (hn : n < 10)
    (hx : ∀ p : Fin 5000, x (ix2 p j) = a (ix2 ⟨5000 * n + p.val, by have := p.isLt; omega⟩ j)) :
    ∑ p : Fin 5000, x (ix2 p j) * x (ix2 p j) = blockColSumSq a j n := by
  unfold blockColSumSq
  rw [dif_pos hn]
  exact Finset.sum_congr rfl fun p _ => by rw [hx p]

/-- The block the pipeline hands the body at point `n` reads rows `5000·n + p` of the table. -/
theorem block_rows (c : Dev nD) (j : Fin 128) (n : ℕ) (hn : n < cfg1.N) (p : Fin 5000) :
    (iblk1 V c 0 ⟨n, hn⟩ : Vec Ideal S5000x128 .f32) (ix2 p j)
      = (V c main_v47 : Cert.Spec.Tab) (ix2 ⟨5000 * n + p.val, by have := p.isLt; have hN : cfg1.N = 10 := N_1; omega⟩ j) :=
  tableRows_apply V c ⟨n, hn⟩ p j (ix2 ⟨5000 * n + p.val, by have := p.isLt; have hN : cfg1.N = 10 := N_1; omega⟩ j) rfl rfl

/-- THE RUNNING SUMS: after point `n` the first accumulator holds, at lane `j`, the column sums of blocks `0 … n`
    added up, and the second their squares' — by induction on the point. -/
theorem stats_acc_apply (c : Dev nD) (u : Fin 1) (j : Fin 128) : ∀ (n : ℕ) (hn : n < cfg1.N),
    (stats_acc V c n hn).1 (ix2 u j) = ∑ t ∈ Finset.range (n + 1), blockColSum (V c main_v47) j t
    ∧ (stats_acc V c n hn).2 (ix2 u j) = ∑ t ∈ Finset.range (n + 1), blockColSumSq (V c main_v47) j t
  | 0, hn => by
    have hN : cfg1.N = 10 := N_1
    constructor
    · show (k1_pay4 (F := Ideal) (iblk1 V c 0 ⟨0, hn⟩) (k1_pay1 (F := Ideal))) (ix2 u j) = _
      refine (sumStep_apply _ _ u j).trans ?_
      rw [zeroSum_apply, zero_add, Finset.sum_range_one]
      exact colSum_of_rows _ _ j 0 (by omega) (block_rows V c j 0 hn)
    · show (k1_pay5 (F := Ideal) (iblk1 V c 0 ⟨0, hn⟩) (k1_pay2 (F := Ideal))) (ix2 u j) = _
      refine (sqStep_apply _ _ u j).trans ?_
      rw [zeroSq_apply, zero_add, Finset.sum_range_one]
      exact colSumSq_of_rows _ _ j 0 (by omega) (block_rows V c j 0 hn)
  | n + 1, hn => by
    have hN : cfg1.N = 10 := N_1
    obtain ⟨ih1, ih2⟩ := stats_acc_apply c u j n (Nat.lt_of_succ_lt hn)
    constructor
    · show (k1_pay4 (F := Ideal) (iblk1 V c 0 ⟨n + 1, hn⟩) (stats_acc V c n (Nat.lt_of_succ_lt hn)).1) (ix2 u j) = _
      refine (sumStep_apply _ _ u j).trans ?_
      rw [ih1, Finset.sum_range_succ _ (n + 1)]
      exact congrArg (_ + ·) (colSum_of_rows _ _ j (n + 1) (by omega) (block_rows V c j (n + 1) hn))
    · show (k1_pay5 (F := Ideal) (iblk1 V c 0 ⟨n + 1, hn⟩) (stats_acc V c n (Nat.lt_of_succ_lt hn)).2) (ix2 u j) = _
      refine (sqStep_apply _ _ u j).trans ?_
      rw [ih2, Finset.sum_range_succ _ (n + 1)]
      exact congrArg (_ + ·) (colSumSq_of_rows _ _ j (n + 1) (by omega) (block_rows V c j (n + 1) hn))

/-- After the last point the accumulators hold the column sums and the column sums of squares of the table. -/
theorem stats_acc_last (c : Dev nD) (u : Fin 1) (j : Fin 128) :
    (stats_acc V c t1_9.val t1_9.isLt).1 (ix2 u j) = Cert.Spec.colSum (V c main_v47) j
    ∧ (stats_acc V c t1_9.val t1_9.isLt).2 (ix2 u j) = Cert.Spec.colSumSq (V c main_v47) j := by
  obtain ⟨h1, h2⟩ := stats_acc_apply V c u j t1_9.val t1_9.isLt
  exact ⟨h1.trans (blockColSum_total _ j), h2.trans (blockColSumSq_total _ j)⟩

/-- A row `X` that holds the column sums at every lane, written back through the first output's block at the last
    point, is that block of the array of column sums (the block is the whole array). -/
theorem sum_block_eq (S : Fin 128 → EReal) (X : Vec Ideal S1x128 .f32) (hX : ∀ (u : Fin 1) (j : Fin 128), X (ix2 u j) = S j) :
    (cfg1.win 1).cut (grid1.coords t1_9) X
      = ((cfg1.win 1).blk t1_9).view.read (Elt Ideal) (fun i : S1x128.Idx => S (i 1)) := by
  obtain ⟨-, -, e2, e3, -, -⟩ := stats_block_indices t1_9
  funext y
  obtain ⟨u, j, rfl⟩ : ∃ (u : Fin 1) (j : Fin 128), y = ix2 u j := ⟨y 0, y 1, eq_ix2 y⟩
  rw [View.read_apply]
  show X (ix2 u j) = S ((((cfg1.win 1).blk t1_9).view.emb (ix2 u j)) 1)
  have he : ((((cfg1.win 1).blk t1_9).view.emb (ix2 u j)) 1 : Fin 128) = j := Fin.ext (by
    show win1_1.index t1_9 (1 : Fin 2) * 128 + 1 * j.val = j.val; rw [e3]; omega)
  rw [he, hX]

/-- Likewise through the second output's block. -/
theorem sq_block_eq (S : Fin 128 → EReal) (X : Vec Ideal S1x128 .f32) (hX : ∀ (u : Fin 1) (j : Fin 128), X (ix2 u j) = S j) :
    (cfg1.win 2).cut (grid1.coords t1_9) X
      = ((cfg1.win 2).blk t1_9).view.read (Elt Ideal) (fun i : S1x128.Idx => S (i 1)) := by
  obtain ⟨-, -, -, -, e4, e5⟩ := stats_block_indices t1_9
  funext y
  obtain ⟨u, j, rfl⟩ : ∃ (u : Fin 1) (j : Fin 128), y = ix2 u j := ⟨y 0, y 1, eq_ix2 y⟩
  rw [View.read_apply]
  show X (ix2 u j) = S ((((cfg1.win 2).blk t1_9).view.emb (ix2 u j)) 1)
  have he : ((((cfg1.win 2).blk t1_9).view.emb (ix2 u j)) 1 : Fin 128) = j := Fin.ext (by
    show win1_2.index t1_9 (1 : Fin 2) * 128 + 1 * j.val = j.val; rw [e5]; omega)
  rw [he, hX]

/-! ## The two output arrays after the region -/

/-- WHAT THE LAST POINT WRITES BACK of the first output is the array of the table's column sums; -/
theorem sum_flushed_eq (c : Dev nD) (t : Fin cfg1.N) (hf : (cfg1.win 1).flush t = true) :
    (dat1 (F := Ideal) V c).flushed 1 t
      = ((cfg1.win 1).blk t).view.read (Elt Ideal) (fun i : S1x128.Idx => Cert.Spec.colSum (V c main_v47) (i 1)) := by
  obtain rfl := sum_flush_last t hf
  show (cfg1.win 1).cut (grid1.coords t1_9) ((dat1 (F := Ideal) V c).after 1 t1_9) = _
  refine sum_block_eq (fun j => Cert.Spec.colSum (V c main_v47) j) _ fun u j => ?_
  rw [after1_1]
  exact (stats_acc_last V c u j).1
/-- of the second, the array of the column sums of squares. -/
theorem sq_flushed_eq (c : Dev nD) (t : Fin cfg1.N) (hf : (cfg1.win 2).flush t = true) :
    (dat1 (F := Ideal) V c).flushed 2 t
      = ((cfg1.win 2).blk t).view.read (Elt Ideal) (fun i : S1x128.Idx => Cert.Spec.colSumSq (V c main_v47) (i 1)) := by
  obtain rfl := sq_flush_last t hf
  show (cfg1.win 2).cut (grid1.coords t1_9) ((dat1 (F := Ideal) V c).after 2 t1_9) = _
  refine sq_block_eq (fun j => Cert.Spec.colSumSq (V c main_v47) j) _ fun u j => ?_
  rw [after1_2]
  exact (stats_acc_last V c u j).2

/-- THE ARRAY of column sums after the region: lane `j` holds `Σ_r a[r, j]` of the table as the region finds it. -/
theorem final1_sum (c : Dev nD) :
    (((dat1 (F := Ideal) V c).arrAt 1 cfg1.N) : S1x128.Idx → EReal) = fun i => Cert.Spec.colSum (V c main_v47) (i 1) :=
  (dat1 (F := Ideal) V c).arrAt_eq_of_cover 1 (fun i : S1x128.Idx => Cert.Spec.colSum (V c main_v47) (i 1)) (sum_flushed_eq V c) sum_cover
/-- THE ARRAY of column sums of squares after the region: lane `j` holds `Σ_r a[r, j]²`. -/
theorem final1_sumsq (c : Dev nD) :
    (((dat1 (F := Ideal) V c).arrAt 2 cfg1.N) : S1x128.Idx → EReal) = fun i => Cert.Spec.colSumSq (V c main_v47) (i 1) :=
  (dat1 (F := Ideal) V c).arrAt_eq_of_cover 2 (fun i : S1x128.Idx => Cert.Spec.colSumSq (V c main_v47) (i 1)) (sq_flushed_eq V c) sq_cover

end Cert.KernelIdeal.Hand

end
-- ==== Proof.Value2.lean ====
/-
  The value of region 2 at the ideal instance: after the region, its output array is the batch normalisation
  followed by the rectifier, entry by entry,
      out[r, j] = max (((a[r, j] − μ[j]) · rsqrt (σ²[j] + ε)) · γ[j] + β[j]) 0,
  of the aggregated table a and of the four rows μ, σ², γ, β as the region finds them.

  Three steps. (1) The body's payload read at an entry (p, q) of a block: every operation is pointwise, a row
  broadcast over the 5000 rows reads the row at q, a cast to the same shape is the identity, the two scalar
  constants are ε and 0. (2) The blocks: entry (p, q) of the table's block at grid point t is entry
  (5000·t + p, q) of the table; the four rows' blocks are the rows themselves. So what point t writes back is
  block t of the normalised table. (3) The ten blocks of 5000 rows cover the 50000 rows — row r lies in the
  block of point r / 5000 — so the array ends holding the normalised table everywhere.
-/
import proofs.«132631_j31903017074707_1_alg».proof.Proof.R2
import proofs.«132631_j31903017074707_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the buffers as the region finds them, at the ideal instance
variable (V : (c : Dev nD) → (b : Ref sig .tc) → Buf (Elt Ideal) ((c : Thread nD τ).loc b))

/-! ## The payload at an entry -/

/-- The body's payload at entry (p, q) of a block: the table block a normalised by the rows. The payload takes
    the variance row before the mean row. -/
theorem norm_pay_apply (a : Vec Ideal S5000x128 .f32) (σ2 μ γ β : Vec Ideal S1x128 .f32) (p : Fin 5000) (q : Fin 128) :
    k2_pay1 a σ2 μ γ β (ix2 p q)
      = max (((a (ix2 p q) - μ (ix2 0 q)) * Ideal.rsqrt (σ2 (ix2 0 q) + Cert.Spec.eps)) * γ (ix2 0 q) + β (ix2 0 q)) 0 := by
  unfold k2_pay1
  rw [maximumf_apply, addf_apply, mulf_apply, mulf_apply, subf_apply]
  rw [broadcastTo_1b_ab_apply, broadcastTo_1b_ab_apply, broadcastTo_1b_ab_apply, broadcastTo_1b_ab_apply]
  simp only [shapeCast_self]
  rw [broadcast_apply, Ideal.ofBits_def, Ideal.ofBits_def, Ideal.ofBits_zero_f32]
  rfl

/-! ## The windows' blocks as entries of their arrays -/

/-- Both offsets of a whole-buffer access are zero. -/
theorem norm_hz : (![0, 0] : Fin 2 → Nat) = fun _ => 0 := funext fun a => by fin_cases a <;> rfl

/-- The block indices over the ten points: the table's window and the output's sit at block (t, 0), the four
    rows' windows at block (0, 0). -/
theorem norm_idx_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Entry (p, q) of the table's block at point t is entry (5000·t + p, q) of the table. -/
theorem norm_tab_blk_apply (c : Dev nD) (t : Fin cfg2.N) (p : Fin 5000) (q : Fin 128) (k : S50000x128.Idx)
    (hk0 : (k 0).val = 5000 * t.val + p.val) (hk1 : (k 1).val = q.val) :
    (iblk2 V c 0 t : Vec Ideal S5000x128 .f32) (ix2 p q) = (V c main_v47 : S50000x128.Idx → EReal) k := by
  obtain ⟨e0, e1, -⟩ := norm_idx_facts t
  unfold iblk2
  rw [View.read_apply]
  show V c main_v47 _ = V c main_v47 _
  refine congrArg _ (funext fun a => Fin.ext ?_)
  match a with
  | ⟨0, _⟩ => show win2_0.index t (0 : Fin 2) * 5000 + 1 * p.val = (k 0).val; rw [e0, hk0]; omega
  | ⟨1, _⟩ => show win2_0.index t (1 : Fin 2) * 128 + 1 * q.val = (k 1).val; rw [e1, hk1]; omega

/-- The four rows' blocks are the rows themselves: each sits at block (0, 0) of a one-row array. -/
theorem norm_mean_blk_apply (c : Dev nD) (t : Fin cfg2.N) (q : Fin 128) :
    (iblk2 V c 1 t : Vec Ideal S1x128 .f32) (ix2 0 q) = (V c main_v50 : S1x128.Idx → EReal) (ix2 0 q) := by
  obtain ⟨-, -, -, -, e0, e1, -⟩ := norm_idx_facts t
  unfold iblk2
  rw [View.read_apply]
  show V c main_v50 _ = V c main_v50 _
  refine congrArg _ (funext fun a => Fin.ext ?_)
  match a with
  | ⟨0, _⟩ => show win2_1.index t (0 : Fin 2) * 1 + 1 * 0 = 0; rw [e0]
  | ⟨1, _⟩ => show win2_1.index t (1 : Fin 2) * 128 + 1 * q.val = q.val; rw [e1]; omega

theorem norm_var_blk_apply (c : Dev nD) (t : Fin cfg2.N) (q : Fin 128) :
    (iblk2 V c 2 t : Vec Ideal S1x128 .f32) (ix2 0 q) = (V c main_v54 : S1x128.Idx → EReal) (ix2 0 q) := by
  obtain ⟨-, -, -, -, -, -, e0, e1, -⟩ := norm_idx_facts t
  unfold iblk2
  rw [View.read_apply]
  show V c main_v54 _ = V c main_v54 _
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

theorem norm_scale_blk_apply (c : Dev nD) (t : Fin cfg2.N) (q : Fin 128) :
    (iblk2 V c 3 t : Vec Ideal S1x128 .f32) (ix2 0 q) = (V c main_v55 : S1x128.Idx → EReal) (ix2 0 q) := by
  obtain ⟨-, -, -, -, -, -, -, -, e0, e1, -⟩ := norm_idx_facts t
  unfold iblk2
  rw [View.read_apply]
  show V c main_v55 _ = V c main_v55 _
  refine congrArg _ (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

theorem norm_shift_blk_apply (c : Dev nD) (t : Fin cfg2.N) (q : Fin 128) :
    (iblk2 V c 4 t : Vec Ideal S1x128 .f32) (ix2 0 q) = (V c main_v56 : S1x128.Idx → EReal) (ix2 0 q) := by
  obtain ⟨-, -, -, -, -, -, -, -, -, -, e0, e1⟩ := norm_idx_facts t
  unfold iblk2
  rw [View.read_apply]
  show V c main_v56 _ = V c main_v56 _
  refine congrArg _ (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

/-! ## What a point writes back -/

/-- The normalised table: what the output array ends holding. -/
abbrev normG (c : Dev nD) : Cert.Spec.Tab :=
  Cert.Spec.bnRelu (V c main_v47) (fun j => V c main_v50 (ix2 0 j)) (fun j => V c main_v54 (ix2 0 j))
    (fun j => V c main_v55 (ix2 0 j)) (fun j => V c main_v56 (ix2 0 j))

/-- The body's result at point t, at entry (p, q): the normalised table at entry (5000·t + p, q). -/
theorem norm_result_apply (c : Dev nD) (t : Fin cfg2.N) (p : Fin 5000) (q : Fin 128) (k : S50000x128.Idx)
    (hk0 : (k 0).val = 5000 * t.val + p.val) (hk1 : k 1 = q) :
    k2_pay1 (iblk2 V c 0 t) (iblk2 V c 2 t) (iblk2 V c 1 t) (iblk2 V c 3 t) (iblk2 V c 4 t) (ix2 p q) = normG V c k := by
  subst hk1
  refine (norm_pay_apply (iblk2 V c 0 t) (iblk2 V c 2 t) (iblk2 V c 1 t) (iblk2 V c 3 t) (iblk2 V c 4 t) p (k 1)).trans ?_
  rw [norm_tab_blk_apply V c t p (k 1) k hk0 rfl, norm_mean_blk_apply V c t (k 1), norm_var_blk_apply V c t (k 1),
    norm_scale_blk_apply V c t (k 1), norm_shift_blk_apply V c t (k 1)]
  rfl

/-- What point t writes back is block t of the normalised table. -/
theorem norm_flushed_eq (c : Dev nD) (t : Fin cfg2.N) :
    (dat2 (F := Ideal) V c).flushed 5 t = ((cfg2.win 5).blk t).view.read (Elt Ideal) (normG V c) := by
  show (cfg2.win 5).cut (grid2.coords t) ((dat2 V c).after 5 t) = _
  rw [after2_5]
  unfold out2_5
  rw [View.canon_unit_zero norm_hz]
  simp only [View.ld_unit_zero (S := S5000x128) norm_hz, View.ld_unit_zero (S := S1x128) norm_hz]
  obtain ⟨-, -, e0, e1, -⟩ := norm_idx_facts t
  refine funext fun (y : S5000x128.Idx) => ?_
  obtain ⟨p, q, rfl⟩ : ∃ (p : Fin 5000) (q : Fin 128), y = ix2 p q := ⟨y 0, y 1, eq_ix2 y⟩
  show k2_pay1 (iblk2 V c 0 t) (iblk2 V c 2 t) (iblk2 V c 1 t) (iblk2 V c 3 t) (iblk2 V c 4 t) (ix2 p q)
      = normG V c (((cfg2.win 5).blk t).view.emb (ix2 p q))
  refine norm_result_apply V c t p q _ ?_ ?_
  · show win2_5.index t (0 : Fin 2) * 5000 + 1 * p.val = 5000 * t.val + p.val
    rw [e0]; omega
  · apply Fin.ext
    show win2_5.index t (1 : Fin 2) * 128 + 1 * q.val = q.val
    rw [e1]; omega

/-! ## The blocks cover the array -/

/-- An entry of the array lies in the block of point t iff each coordinate lies in the block's range on its axis. -/
theorem norm_mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v57).slice (win2_5.rect t)).set ↔ _
  rw [View.set_slice_whole, Rect.mem_set_unit]
  exact Iff.rfl

/-- The grid point whose block holds row r: r / 5000. -/
def normPointOf (r : Fin 50000) : Fin cfg2.N :=
  ⟨r.val / 5000, lt_of_lt_of_eq (by have := r.isLt; omega) N_2.symm⟩

/-- Every entry of the array lies in the block of some point, and every point writes its block back. -/
theorem norm_cover (i : S50000x128.Idx) :
    ∃ t : Fin cfg2.N, (cfg2.win 5).flush t = true ∧ i ∈ ((cfg2.win 5).blk t).view.set := by
  have h0 : (i 0).val < 50000 := idx2_lt0 i
  have h1 : (i 1).val < 128 := idx2_lt1 i
  obtain ⟨-, -, e0, e1, -⟩ := norm_idx_facts (normPointOf (i 0))
  have ev : (normPointOf (i 0)).val = (i 0).val / 5000 := rfl
  refine ⟨normPointOf (i 0), flush2_5 _, ?_⟩
  rw [norm_mem_blk]
  intro a
  match a with
  | ⟨0, _⟩ =>
    show win2_5.index (normPointOf (i 0)) (0 : Fin 2) * 5000 ≤ (i 0).val
      ∧ (i 0).val < win2_5.index (normPointOf (i 0)) (0 : Fin 2) * 5000 + 5000
    rw [e0, ev]; omega
  | ⟨1, _⟩ =>
    show win2_5.index (normPointOf (i 0)) (1 : Fin 2) * 128 ≤ (i 1).val
      ∧ (i 1).val < win2_5.index (normPointOf (i 0)) (1 : Fin 2) * 128 + 128
    rw [e1]; omega

/-! ## The output array after the region -/

/-- After the region the output array is the normalised table. -/
theorem final2 (c : Dev nD) : (((dat2 (F := Ideal) V c).arrAt 5 cfg2.N) : S50000x128.Idx → EReal)
      = Cert.Spec.bnRelu (V c main_v47) (fun j => V c main_v50 (ix2 0 j)) (fun j => V c main_v54 (ix2 0 j))
          (fun j => V c main_v55 (ix2 0 j)) (fun j => V c main_v56 (ix2 0 j)) :=
  (dat2 (F := Ideal) V c).arrAt_eq_of_cover 5 (normG V c) (fun t _ => norm_flushed_eq V c t) norm_cover

end Cert.KernelIdeal.Hand

end
-- ==== Proof.SpecLaw.lean ====
/-
  Library-only mathematics for the batch-norm statistics over the extended reals.
  * The element count is the real number 50000.
  * On a table whose entries are all real numbers the two spellings of the variance agree:
    the second moment less the squared mean, and the mean of the centred squares.
  * The reciprocal square root of a positive extended real is one over its square root, and is real.
  * Real-valuedness is closed under the operations the two programs apply: pointwise sums and
    products, finite sums, the linear layer, a gather, a scatter-add, a select, a constant, and the
    guarded reciprocal square root; the column sums, the mean and both variances of a real table
    are real.
-/
import proofs.«132631_j31903017074707_1_alg».proof.Proof.Spec
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv

noncomputable section

open scoped BigOperators

namespace Cert.Spec

open Idealize.ShloMosaic Idealize.ShloMosaic.ValueIdx

/-! ### The count -/

/-- The word of the element count denotes the real number 50000:
    exponent field 142, fraction field 4411392, so (2^23 + 4411392) · 2^(142 − 127 − 23) = 50000. -/
theorem cnt_eq : cnt = ((50000 : ℝ) : EReal) := by
  simp [cnt, Ideal.ofBits, Ideal.ieee, -EReal.coe_mul]; norm_num

theorem cnt_ne_zero_real : (50000 : ℝ) ≠ 0 := by norm_num

/-! ### Finite sums of reals -/

/-- The coercion of the reals into the extended reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is a real number is a real number. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := h a (Finset.mem_insert_self a s)
    obtain ⟨y, hy⟩ := ih (fun i hi => h i (Finset.mem_insert_of_mem hi))
    exact ⟨x + y, by rw [Finset.sum_insert ha, hx, hy, EReal.coe_add]⟩

/-- The sum, the product and the difference of two real numbers are real numbers. -/
theorem add_real {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem mul_real {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem sub_real {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- The quotient of a real number by the count is a real number. -/
theorem div_cnt_real {x : EReal} (hx : ∃ r : ℝ, x = (r : EReal)) : ∃ r : ℝ, Ideal.div x cnt = (r : EReal) := by
  obtain ⟨a, rfl⟩ := hx
  exact ⟨a * (1 / 50000), by rw [cnt_eq, Ideal.div_coe cnt_ne_zero_real, EReal.coe_mul]⟩

/-! ### Closure of real-valuedness -/

section Closure
variable {S : Shape}

/-- An array that is constantly a real number. -/
theorem isReal_const (r : ℝ) : IsReal (S := S) (fun _ => (r : EReal)) := fun _ => ⟨r, rfl⟩

/-- The constantly zero array. -/
theorem isReal_zero : IsReal (S := S) (fun _ => (0 : EReal)) := fun _ => ⟨0, rfl⟩

/-- The pointwise sum of two real arrays. -/
theorem IsReal.add {a b : S.Idx → EReal} (ha : IsReal a) (hb : IsReal b) : IsReal (fun i => a i + b i) :=
  fun i => add_real (ha i) (hb i)

/-- The pointwise product of two real arrays. -/
theorem IsReal.mul {a b : S.Idx → EReal} (ha : IsReal a) (hb : IsReal b) : IsReal (fun i => a i * b i) :=
  fun i => mul_real (ha i) (hb i)

/-- The pointwise difference of two real arrays. -/
theorem IsReal.sub {a b : S.Idx → EReal} (ha : IsReal a) (hb : IsReal b) : IsReal (fun i => a i - b i) :=
  fun i => sub_real (ha i) (hb i)

/-- An array each of whose entries is an entry of one of two real arrays. -/
theorem IsReal.of_or {a b f : S.Idx → EReal} (ha : IsReal a) (hb : IsReal b) (h : ∀ i, f i = a i ∨ f i = b i) :
    IsReal f := fun i => by
  rcases h i with e | e
  · rw [e]; exact ha i
  · rw [e]; exact hb i

/-- A choice, entry by entry on a decidable condition, between two real arrays. -/
theorem IsReal.ite {a b : S.Idx → EReal} (c : S.Idx → Prop) [DecidablePred c] (ha : IsReal a) (hb : IsReal b) :
    IsReal (fun i => if c i then a i else b i) := fun i => by
  by_cases hc : c i
  · simp only [if_pos hc]; exact ha i
  · simp only [if_neg hc]; exact hb i

/-- A select on a one-bit mask between two real arrays. -/
theorem IsReal.select {a b : S.Idx → EReal} (c : IVec S 1) (ha : IsReal a) (hb : IsReal b) :
    IsReal (Idealize.ShloMosaic.select c a b) := fun i => by
  show ∃ r : ℝ, (if c i = 1 then a i else b i) = (r : EReal)
  by_cases hc : c i = 1
  · rw [if_pos hc]; exact ha i
  · rw [if_neg hc]; exact hb i

/-- A reindexing of a real array. -/
theorem IsReal.comp {T : Shape} {a : S.Idx → EReal} (ha : IsReal a) (g : T.Idx → S.Idx) :
    IsReal (fun j => a (g j)) := fun j => ha (g j)

/-- A gather from a real operand. -/
theorem IsReal.gather {si t : Shape} {w : Nat} (d : GatherDims S si t) {x : S.Idx → EReal} (hx : IsReal x)
    (idx : IVec si w) : IsReal (Host.gather d x idx) := fun j => hx (d.operandIdx j idx)

/-- A scatter-add of real updates into a real operand. -/
theorem IsReal.hostScatterAdd {si su : Shape} {w : Nat} (d : ScatterDims S si su) {x : S.Idx → EReal}
    (hx : IsReal x) (idx : IVec si w) {u : su.Idx → EReal} (hu : IsReal u) :
    IsReal (Ideal.hostScatterAdd d x idx u) := fun i =>
  add_real (hx i) (sum_real _ _ (fun j _ => hu j))

end Closure

/-- The linear layer of a real table and a real weight matrix. -/
theorem isReal_matT {x : Tab} {w : Wgt} (hx : IsReal x) (hw : IsReal w) : IsReal (matT x w) := fun q =>
  sum_real _ _ (fun k _ => mul_real (hx (ix2 (q 0) k)) (hw (ix2 (q 1) k)))

/-! ### The reciprocal square root -/

/-- Above zero the reciprocal square root is one over the square root: at infinity both are zero, at
    a positive real both are the inverse of its square root. -/
theorem rsqrt_eq_one_div_sqrt (d : EReal) (h : 0 < d) : Ideal.rsqrt d = Ideal.div 1 (Ideal.sqrt d) := by
  induction d using EReal.rec with
  | bot => exact absurd h not_lt_bot
  | top => rw [Ideal.rsqrt_top, Ideal.sqrt_top, Ideal.div, if_neg EReal.top_ne_zero, EReal.inv_top, mul_zero]
  | coe r =>
    have hr : 0 < r := by exact_mod_cast h
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_mul, one_div]

/-- Above zero the reciprocal square root is a real number. -/
theorem rsqrt_isReal_of_pos (d : EReal) (h : 0 < d) : ∃ r : ℝ, Ideal.rsqrt d = (r : EReal) := by
  induction d using EReal.rec with
  | bot => exact absurd h not_lt_bot
  | top => exact ⟨0, by rw [Ideal.rsqrt_top, EReal.coe_zero]⟩
  | coe r =>
    have hr : 0 < r := by exact_mod_cast h
    exact ⟨(Real.sqrt r)⁻¹, by rw [Ideal.rsqrt_coe, if_neg (not_lt.mpr hr.le), if_neg hr.ne']⟩

/-- The guarded reciprocal square root, zero where the argument is not positive, is a real number. -/
theorem rsqrt_guarded_real (d : EReal) : ∃ r : ℝ, (if 0 < d then Ideal.rsqrt d else 0) = (r : EReal) := by
  by_cases h : 0 < d
  · rw [if_pos h]; exact rsqrt_isReal_of_pos d h
  · rw [if_neg h]; exact ⟨0, rfl⟩

/-- The guarded reciprocal square root of any array is a real array. -/
theorem isReal_rsqrt_guarded {S : Shape} (x : S.Idx → EReal) :
    IsReal (fun i => if 0 < x i then Ideal.rsqrt (x i) else 0) := fun i => rsqrt_guarded_real (x i)

/-! ### The statistics of a real table -/

/-- The column sum of a real table is a real number. -/
theorem colSum_real {a : Tab} (h : IsReal a) (j : Fin 128) : ∃ r : ℝ, colSum a j = (r : EReal) :=
  sum_real _ _ (fun r _ => h (ix2 r j))

/-- The column sum of squares of a real table is a real number. -/
theorem colSumSq_real {a : Tab} (h : IsReal a) (j : Fin 128) : ∃ r : ℝ, colSumSq a j = (r : EReal) :=
  sum_real _ _ (fun r _ => mul_real (h (ix2 r j)) (h (ix2 r j)))

/-- The column mean of a real table is a real number. -/
theorem mean_real {a : Tab} (h : IsReal a) (j : Fin 128) : ∃ r : ℝ, mean a j = (r : EReal) :=
  div_cnt_real (colSum_real h j)

/-- The variance by moments of a real table is a real number. -/
theorem varMoments_real {a : Tab} (h : IsReal a) (j : Fin 128) : ∃ r : ℝ, varMoments a j = (r : EReal) :=
  sub_real (div_cnt_real (colSumSq_real h j)) (mul_real (mean_real h j) (mean_real h j))

/-- Over the reals, for n numbers g with sum s, sum of squares q and m = s / n:
    q / n − m² = (Σ (g − m)²) / n, because Σ (g − m)² = q − 2 m s + n m² and n m = s. -/
theorem real_var_identity {n : ℕ} (c : ℝ) (hc : c = (n : ℝ)) (hn : c ≠ 0) (g : Fin n → ℝ) :
    (∑ r, g r * g r) * (1 / c) - ((∑ r, g r) * (1 / c)) * ((∑ r, g r) * (1 / c))
      = (∑ r, (g r - (∑ r, g r) * (1 / c)) * (g r - (∑ r, g r) * (1 / c))) * (1 / c) := by
  set s : ℝ := ∑ r, g r with hs
  set q : ℝ := ∑ r, g r * g r with hq
  set m : ℝ := s * (1 / c) with hm
  have expand : ∀ r, (g r - m) * (g r - m) = g r * g r - 2 * m * g r + m * m := fun r => by ring
  have key : ∑ r, (g r - m) * (g r - m) = q - 2 * m * s + c * (m * m) := by
    simp only [expand]
    rw [Finset.sum_add_distrib, Finset.sum_sub_distrib, ← Finset.mul_sum, Finset.sum_const, Finset.card_univ,
      Fintype.card_fin, nsmul_eq_mul, ← hc]
  rw [key, hm]
  field_simp
  ring

/-- On a real table the variance by moments is the variance by centred squares. -/
theorem var_eq (a : Tab) (h : IsReal a) (j : Fin 128) : varMoments a j = varCentred a j := by
  choose f hf using h
  have hn := cnt_ne_zero_real
  have hS : colSum a j = ((∑ r : Fin 50000, f (ix2 r j) : ℝ) : EReal) := by
    simp only [colSum, hf]; exact coe_sum _ _
  have hQ : colSumSq a j = ((∑ r : Fin 50000, f (ix2 r j) * f (ix2 r j) : ℝ) : EReal) := by
    simp only [colSumSq, hf, ← EReal.coe_mul]; exact coe_sum _ _
  have hm : mean a j = (((∑ r : Fin 50000, f (ix2 r j)) * (1 / 50000) : ℝ) : EReal) := by
    rw [mean, hS, cnt_eq, Ideal.div_coe hn, ← EReal.coe_mul]
  rw [varMoments, varCentred, hm, hQ, cnt_eq, Ideal.div_coe hn, Ideal.div_coe hn]
  simp only [hf, ← EReal.coe_sub, ← EReal.coe_mul]
  rw [coe_sum, ← EReal.coe_mul]
  exact congrArg _ (real_var_identity (n := 50000) 50000 (by norm_num) hn (fun r => f (ix2 r j)))

/-- The variance by centred squares of a real table is a real number. -/
theorem varCentred_real {a : Tab} (h : IsReal a) (j : Fin 128) : ∃ r : ℝ, varCentred a j = (r : EReal) := by
  rw [← var_eq a h j]; exact varMoments_real h j

/-! ### The inverse square-root degrees

  Both programs guard the inverse square root of the degree by the mask "degree above zero" and put
  zero elsewhere; one takes the reciprocal square root, the other one over the square root. Where the
  mask is set the degree is positive, so the two agree and are real; elsewhere both are the zero. -/

section Dinv
variable {S : Shape}

/-- The word of one denotes the real number one. -/
theorem one_word : Ideal.ofBits .f32 0x3F800000#32 = 1 := by
  simp [Ideal.ofBits, Ideal.ieee, -EReal.coe_mul]; norm_num

/-- The word of positive zero denotes zero. -/
theorem zero_word : Ideal.ofBits .f32 0x00000000#32 = 0 := Ideal.ofBits_zero_f32

/-- The mask of "greater than" is set at an index exactly where the second operand is below the first. -/
theorem ogt_mask_eq_one_iff (x y : FVec Ideal S .f32) (i : S.Idx) :
    cmpf (F := Ideal) .ogt x y i = 1#1 ↔ y i < x i := by
  show BitVec.ofBool (decide (y i < x i)) = 1#1 ↔ y i < x i
  by_cases h : y i < x i <;> simp [h]

/-- Guarded by "degree above zero", the reciprocal square root is one over the square root. -/
theorem dinv_eq (deg z o zz : FVec Ideal S .f32) (hz : ∀ i, z i = 0) (ho : ∀ i, o i = 1) :
    select (cmpf (F := Ideal) .ogt deg z) (Host.rsqrt (F := Ideal) deg) zz
      = select (cmpf (F := Ideal) .ogt deg z) (Host.divf (F := Ideal) o (Host.sqrt (F := Ideal) deg)) zz := by
  funext i
  rw [select_apply, select_apply]
  by_cases h : cmpf (F := Ideal) .ogt deg z i = 1#1
  · have hpos : 0 < deg i := by rw [← hz i]; exact (ogt_mask_eq_one_iff deg z i).mp h
    rw [h, select_one, select_one]
    show Ideal.rsqrt (deg i) = Ideal.div (o i) (Ideal.sqrt (deg i))
    rw [ho i]; exact rsqrt_eq_one_div_sqrt _ hpos
  · rw [eq_zero_of_ne_one h, select_zero, select_zero]

/-- Guarded by "degree above zero" and zero elsewhere, the reciprocal square root is a real array. -/
theorem dinv_isReal (deg z zz : FVec Ideal S .f32) (hz : ∀ i, z i = 0) (hzz : ∀ i, zz i = 0) :
    IsReal (select (cmpf (F := Ideal) .ogt deg z) (Host.rsqrt (F := Ideal) deg) zz) := fun i => by
  rw [select_apply]
  by_cases h : cmpf (F := Ideal) .ogt deg z i = 1#1
  · have hpos : 0 < deg i := by rw [← hz i]; exact (ogt_mask_eq_one_iff deg z i).mp h
    rw [h, select_one]
    exact rsqrt_isReal_of_pos _ hpos
  · rw [eq_zero_of_ne_one h, select_zero, hzz i]; exact ⟨0, rfl⟩

end Dinv

end Cert.Spec

end
-- ==== Proof.HostK.lean ====
/-
  The host stretches of the kernel program, read as pure functions of the arrays they start from.

  * the index / weight stretch: the row and column lists of the graph with one self loop per node
    appended, the in-degree of every node, its inverse square root (zero where the degree is zero),
    and the edge weight, the product of the two end points' inverse square roots;
  * the aggregation stretch: each edge carries the source node's feature row scaled by the edge
    weight into the target node's row; the bias row is added to every node;
  * the statistics stretch: column mean and column variance (second moment less squared mean) from
    the two column sums, and the scale and shift vectors laid out as one row.

  At the extended reals the aggregated table equals the reference's.
-/
import proofs.«132631_j31903017074707_1_alg».proof.Proof.Gen.KernelIdeal.Regions
import proofs.«132631_j31903017074707_1_alg».proof.Proof.RefReadP
import proofs.«132631_j31903017074707_1_alg».proof.Proof.Spec
import proofs.«132631_j31903017074707_1_alg».proof.Proof.SpecLaw
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]

/-! ## Node numbers -/

/-- A list of node numbers with every negative entry raised by the node count. -/
def wrapIdx (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-! ## The index and weight stretch -/

/-- The source node of every edge, then every node once (its self loop). -/
def rowK (e : IVec S2x800000 32) : IVec S850000 32 :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

/-- The target node of every edge, then every node once (its self loop). -/
def colK (e : IVec S2x800000 32) : IVec S850000 32 :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

/-- The in-degree of every node, self loop counted: one added at each edge's target. -/
def degOf (col : IVec S850000 32) : FVec F S50000 .f32 :=
  Host.scatterAdd scatter_S50000_S850000x1_S850000_n_0_0_1
    (broadcastInDim S50000 ![] bcast_S_S50000 (constant (F := F) S_ .f32 0x00000000#32))
    (broadcastInDim S850000x1 ![0] bcast_S850000_S850000x1_0 col)
    (broadcastInDim S850000 ![] bcast_S_S850000 (constant (F := F) S_ .f32 0x3F800000#32))

/-- Where the degree is positive. -/
def posOf (deg : FVec F S50000 .f32) : IVec S50000 1 :=
  cmpf .ogt deg (broadcastInDim S50000 ![] bcast_S_S50000 (constant (F := F) S_ .f32 0x00000000#32))

/-- The inverse square root of the degree where it is positive, zero elsewhere. -/
def dinvOf (deg : FVec F S50000 .f32) : FVec F S50000 .f32 :=
  select (posOf deg) (Host.rsqrt deg) (broadcastInDim S50000 ![] bcast_S_S50000 (constant (F := F) S_ .f32 0x00000000#32))

/-- The inverse square root of every node's degree. -/
def dinvK (e : IVec S2x800000 32) : FVec F S50000 .f32 := dinvOf (degOf (F := F) (colK e))

/-- A per-node value read at each entry of a list of node numbers. -/
def atNodes (x : FVec F S50000 .f32) (v : IVec S850000 32) : FVec F S850000 .f32 :=
  Host.gather gather_S50000_S850000x1_S850000_n_0_n_n_0_1_1 x
    (broadcastInDim S850000x1 ![0] bcast_S850000_S850000x1_0 (wrapIdx v))

/-- The weight of every edge from the per-node factor: the product of its two end points' factors. -/
def normOf (dinv : FVec F S50000 .f32) (row col : IVec S850000 32) : FVec F S850000 .f32 :=
  mulf (atNodes dinv row) (atNodes dinv col)

/-- The weight of every edge. -/
def normK (e : IVec S2x800000 32) : FVec F S850000 .f32 := normOf (dinvK (F := F) e) (rowK e) (colK e)

variable (W0 : Valuation τ sig (Elt F))

/-! ### The first part: lists, degree, its inverse square root and the positivity mask -/

theorem row_read0 : after hostOps0 W0 (Proc.devRef .tc main_v3) = rowK (W0 (Proc.devRef .tc main_arg1)) := by
  after_results
  rfl

theorem col_read0 : after hostOps0 W0 (Proc.devRef .tc main_v6) = colK (W0 (Proc.devRef .tc main_arg1)) := by
  after_results
  rfl

theorem deg_read0 : after hostOps0 W0 (Proc.devRef .tc main_v10) = degOf (F := F) (colK (W0 (Proc.devRef .tc main_arg1))) := by
  after_results
  rfl

theorem pos_read0 : after hostOps0 W0 (Proc.devRef .tc main_v12) = posOf (degOf (F := F) (colK (W0 (Proc.devRef .tc main_arg1)))) := by
  after_results
  rfl

theorem rsq_read0 : after hostOps0 W0 (Proc.devRef .tc main_v13) = Host.rsqrt (degOf (F := F) (colK (W0 (Proc.devRef .tc main_arg1)))) := by
  after_results
  rfl

theorem zero_read0 : after hostOps0 W0 (Proc.devRef .tc main_cst_2) = constant (F := F) S_ .f32 0x00000000#32 := by
  after_results

/-! ### The second part: the selection -/

theorem dinv_read1 (W : Valuation τ sig (Elt F)) :
    after hostOps0_1 W (Proc.devRef .tc main_v14)
      = select (W (Proc.devRef .tc main_v12)) (W (Proc.devRef .tc main_v13))
          (broadcastInDim S50000 ![] bcast_S_S50000 (W (Proc.devRef .tc main_cst_2))) := by
  after_results
  rfl

/-! ### The third part: the edge weights -/

theorem norm_read2 (W : Valuation τ sig (Elt F)) :
    after hostOps0_2 W (Proc.devRef .tc main_v29)
      = normOf (F := F) (W (Proc.devRef .tc main_v14)) (W (Proc.devRef .tc main_v3)) (W (Proc.devRef .tc main_v6)) := by
  after_results_simp
  rfl

/-! ### The three parts in a row -/

theorem row_read :
    after hostOps0_2 (after hostOps0_1 (after hostOps0 W0)) (Proc.devRef .tc main_v3) = rowK (W0 (Proc.devRef .tc main_arg1)) :=
  (after_of_writes_sub hostOps0_2 _ hostOps0_2_writes (by decide)).trans
    ((after_of_writes_sub hostOps0_1 _ hostOps0_1_writes (by decide)).trans (row_read0 W0))

theorem col_read :
    after hostOps0_2 (after hostOps0_1 (after hostOps0 W0)) (Proc.devRef .tc main_v6) = colK (W0 (Proc.devRef .tc main_arg1)) :=
  (after_of_writes_sub hostOps0_2 _ hostOps0_2_writes (by decide)).trans
    ((after_of_writes_sub hostOps0_1 _ hostOps0_1_writes (by decide)).trans (col_read0 W0))

theorem dinv_read01 :
    after hostOps0_1 (after hostOps0 W0) (Proc.devRef .tc main_v14) = dinvK (F := F) (W0 (Proc.devRef .tc main_arg1)) := by
  rw [dinv_read1, pos_read0, rsq_read0, zero_read0]
  rfl

theorem norm_read :
    after hostOps0_2 (after hostOps0_1 (after hostOps0 W0)) (Proc.devRef .tc main_v29) = normK (F := F) (W0 (Proc.devRef .tc main_arg1)) := by
  rw [norm_read2, dinv_read01,
    after_of_writes_sub hostOps0_1 _ hostOps0_1_writes (show main_v3 ∉ hostOps0_1_W by decide),
    after_of_writes_sub hostOps0_1 _ hostOps0_1_writes (show main_v6 ∉ hostOps0_1_W by decide),
    row_read0, col_read0]
  rfl

/-- The bias vector is not touched by the index and weight stretch. -/
theorem bias_kept :
    after hostOps0_2 (after hostOps0_1 (after hostOps0 W0)) (Proc.devRef .tc main_arg3) = W0 (Proc.devRef .tc main_arg3) :=
  (after_of_writes_sub hostOps0_2 _ hostOps0_2_writes (by decide)).trans
    ((after_of_writes_sub hostOps0_1 _ hostOps0_1_writes (by decide)).trans
      (after_of_writes_sub hostOps0 _ hostOps0_writes (by decide)))

/-! ## The aggregation stretch -/

/-- A per-node table's rows read at each entry of a list of node numbers. -/
def rowsAt {α : Type} (h : S50000x128.Idx → α) (v : IVec S850000 32) : S850000x128.Idx → α :=
  Host.gather gather_S50000x128_S850000x1_S850000x128_1_0_n_n_0_1_1128 h
    (broadcastInDim S850000x1 ![0] bcast_S850000_S850000x1_0 (wrapIdx v))

/-- The gathered rows, one per edge, each scaled by its edge's weight, summed into their target nodes' rows
    from zero; the bias row added to every node. -/
def aggOf (g : FVec F S850000x128 .f32) (nrm : FVec F S850000 .f32) (col : IVec S850000 32) (b : FVec F S128 .f32) :
    FVec F S50000x128 .f32 :=
  addf
    (Host.scatterAdd scatter_S50000x128_S850000x1_S850000x128_1_0_0_1
      (broadcastInDim S50000x128 ![] bcast_S_S50000x128 (constant (F := F) S_ .f32 0x00000000#32))
      (broadcastInDim S850000x1 ![0] bcast_S850000_S850000x1_0 col)
      (mulf g
        (broadcastInDim S850000x128 ![0, 1] bcast_S850000x1_S850000x128_0_1
          (broadcastInDim S850000x1 ![0] bcast_S850000_S850000x1_0 nrm))))
    (broadcastInDim S50000x128 ![0, 1] bcast_S1x128_S50000x128_0_1
      (broadcastInDim S1x128 ![1] bcast_S128_S1x128_1 b))

/-- The aggregated table from the bf16 feature table: its rows gathered at the edges' source nodes and widened
    to f32, then weighted, summed at the target nodes and shifted by the bias. -/
def aggK (h : FVec F S50000x128 .bf16) (nrm : FVec F S850000 .f32) (row col : IVec S850000 32) (b : FVec F S128 .f32) :
    FVec F S50000x128 .f32 :=
  aggOf (extf .f32 (rowsAt h row) bitsLt_bf16_f32) nrm col b

theorem agg_read (Wp : Valuation τ sig (Elt F)) :
    after hostOps1 Wp (Proc.devRef .tc main_v47)
      = aggK (F := F) (Wp (Proc.devRef .tc main_v30)) (Wp (Proc.devRef .tc main_v29)) (Wp (Proc.devRef .tc main_v3))
          (Wp (Proc.devRef .tc main_v6)) (Wp (Proc.devRef .tc main_arg3)) := by
  after_results_simp
  rfl

/-! ## The statistics stretch -/

/-- The node count as a `[1, 128]` row. -/
def cntRow : FVec F S1x128 .f32 :=
  broadcastInDim S1x128 ![] bcast_S_S1x128 (constant (F := F) S_ .f32 0x47435000#32)

/-- The column means from the column sums. -/
def meanK (s : FVec F S1x128 .f32) : FVec F S1x128 .f32 := Host.divf s (cntRow (F := F))

/-- The column variances from the column sums and the column sums of squares: second moment less squared mean. -/
def varK (s q : FVec F S1x128 .f32) : FVec F S1x128 .f32 :=
  subf (Host.divf q (cntRow (F := F))) (mulf (meanK s) (meanK s))

theorem mean_read (Wp : Valuation τ sig (Elt F)) :
    after hostOps2 Wp (Proc.devRef .tc main_v50) = meanK (F := F) (Wp (Proc.devRef .tc main_v48_0)) := by
  after_results
  rfl

theorem var_read (Wp : Valuation τ sig (Elt F)) :
    after hostOps2 Wp (Proc.devRef .tc main_v54)
      = varK (F := F) (Wp (Proc.devRef .tc main_v48_0)) (Wp (Proc.devRef .tc main_v48_1)) := by
  after_results
  rfl

theorem gamma_read (Wp : Valuation τ sig (Elt F)) :
    after hostOps2 Wp (Proc.devRef .tc main_v55)
      = shapeCast S1x128 (Wp (Proc.devRef .tc main_arg4)) shapeCasts_S128_S1x128 := by
  after_results
  rfl

theorem beta_read (Wp : Valuation τ sig (Elt F)) :
    after hostOps2 Wp (Proc.devRef .tc main_v56)
      = shapeCast S1x128 (Wp (Proc.devRef .tc main_arg5)) shapeCasts_S128_S1x128 := by
  after_results
  rfl

/-- The statistics stretch leaves the aggregated table as it found it. -/
theorem agg_kept (Wp : Valuation τ sig (Elt F)) :
    after hostOps2 Wp (Proc.devRef .tc main_v47) = Wp (Proc.devRef .tc main_v47) :=
  after_of_writes_sub hostOps2 Wp hostOps2_writes (by decide)

/-! ### At the extended reals, entry by entry -/

section AtIdeal
open Idealize.ShloMosaic.ValueIdx

variable (Wp : Valuation τ sig (Elt Ideal))

theorem cntRow_apply (i : S1x128.Idx) : (cntRow (F := Ideal) i : EReal) = Cert.Spec.cnt := rfl

theorem mean_at (j : Fin 128) :
    (after hostOps2 Wp (Proc.devRef .tc main_v50) : S1x128.Idx → EReal) (ix2 0 j)
      = Ideal.div ((Wp (Proc.devRef .tc main_v48_0) : S1x128.Idx → EReal) (ix2 0 j)) Cert.Spec.cnt := by
  rw [mean_read]; rfl

theorem var_at (j : Fin 128) :
    (after hostOps2 Wp (Proc.devRef .tc main_v54) : S1x128.Idx → EReal) (ix2 0 j)
      = Ideal.div ((Wp (Proc.devRef .tc main_v48_1) : S1x128.Idx → EReal) (ix2 0 j)) Cert.Spec.cnt
        - Ideal.div ((Wp (Proc.devRef .tc main_v48_0) : S1x128.Idx → EReal) (ix2 0 j)) Cert.Spec.cnt
          * Ideal.div ((Wp (Proc.devRef .tc main_v48_0) : S1x128.Idx → EReal) (ix2 0 j)) Cert.Spec.cnt := by
  rw [var_read]; rfl

theorem row_of_vec (x : S128.Idx → EReal) (j : Fin 128) :
    shapeCast S1x128 x shapeCasts_S128_S1x128 (ix2 0 j) = x (ix1 j) :=
  shapeCast_apply x shapeCasts_S128_S1x128 (ix2 0 j) (ix1 j)
    (by rewrite [Shape.rowMajor_val_two, Shape.rowMajor_val_one]; show j.val = 0 * 128 + j.val; omega)

theorem gamma_at (j : Fin 128) :
    (after hostOps2 Wp (Proc.devRef .tc main_v55) : S1x128.Idx → EReal) (ix2 0 j)
      = (Wp (Proc.devRef .tc main_arg4) : S128.Idx → EReal) (ix1 j) := by
  rw [gamma_read]; exact row_of_vec _ j

theorem beta_at (j : Fin 128) :
    (after hostOps2 Wp (Proc.devRef .tc main_v56) : S1x128.Idx → EReal) (ix2 0 j)
      = (Wp (Proc.devRef .tc main_arg5) : S128.Idx → EReal) (ix1 j) := by
  rw [beta_read]; exact row_of_vec _ j

end AtIdeal

/-! ## The aggregated table is the reference's -/

section Ref
open Idealize.ShloMosaic.ValueIdx

/-! The two programs' index lists, degree and edge-weight expressions are the same operations on the same operands. -/

theorem rowK_eq_ref (e : IVec S2x800000 32) : rowK e = Cert.ReferenceIdeal.ReadP.val_main_v3 (F := F) e := rfl
theorem colK_eq_ref (e : IVec S2x800000 32) : colK e = Cert.ReferenceIdeal.ReadP.val_main_v6 (F := F) e := rfl
theorem deg_eq_ref (e : IVec S2x800000 32) : degOf (F := F) (colK e) = Cert.ReferenceIdeal.ReadP.val_main_v10 (F := F) e := rfl
theorem norm_eq_ref (e : IVec S2x800000 32) :
    normOf (F := F) (Cert.ReferenceIdeal.ReadP.val_main_v16 (F := F) e) (rowK e) (colK e)
      = Cert.ReferenceIdeal.ReadP.val_main_v31 (F := F) e := rfl
theorem agg_eq_ref_of (x0 : FVec F S50000x128 .f32) (e : IVec S2x800000 32) (x2 : FVec F S128x128 .f32) (b : FVec F S128 .f32) :
    aggOf (F := F) (rowsAt (Cert.ReferenceIdeal.ReadP.val_main_v33 (F := F) x0 x2) (rowK e))
        (Cert.ReferenceIdeal.ReadP.val_main_v31 (F := F) e) (colK e) b
      = Cert.ReferenceIdeal.ReadP.val_main_v49 (F := F) x0 e x2 b := rfl

/-! ### At the extended reals -/

/-- The reference's linear layer, a contraction of the features with the transposed weights, is `x · Wᵀ`. -/
theorem matT_eq_ref (x0 : FVec Ideal S50000x128 .f32) (x2 : FVec Ideal S128x128 .f32) :
    Cert.ReferenceIdeal.ReadP.val_main_v33 (F := Ideal) x0 x2 = Cert.Spec.matT x0 x2 := by
  funext q
  rw [Cert.ReferenceIdeal.ReadP.val_main_v33_apply]
  unfold Cert.Spec.matT
  refine Finset.sum_congr rfl fun k _ => ?_
  rw [Cert.ReferenceIdeal.ReadP.val_main_v32_apply]
  have hl : Cert.ReferenceIdeal.ReadP.lidx_main_v33 q k = ix2 (q 0) k := by
    funext a; match a with
    | ⟨0, _⟩ => rfl
    | ⟨1, _⟩ => rfl
  have hr : Cert.ReferenceIdeal.ReadP.idx_main_v32 (Cert.ReferenceIdeal.ReadP.ridx_main_v33 q k) = ix2 (q 1) k := by
    funext a; match a with
    | ⟨0, _⟩ => rfl
    | ⟨1, _⟩ => rfl
  rw [hl, hr]
  rfl

/-- The zero table is zero at every node. -/
theorem zeros_apply (i : S50000.Idx) :
    broadcastInDim S50000 ![] bcast_S_S50000 (constant (F := Ideal) S_ .f32 0x00000000#32) i = 0 := Cert.Spec.zero_word

/-- The reference's table of ones is one at every node. -/
theorem ones_apply (i : S50000.Idx) : Cert.ReferenceIdeal.ReadP.val_main_v14 (F := Ideal) i = 1 := Cert.Spec.one_word

/-- The per-node factor: the reciprocal square root of a positive degree is one over its square root. -/
theorem dinv_eq_ref (e : IVec S2x800000 32) :
    dinvK (F := Ideal) e = Cert.ReferenceIdeal.ReadP.val_main_v16 (F := Ideal) e := by
  unfold dinvK dinvOf posOf Cert.ReferenceIdeal.ReadP.val_main_v16 Cert.ReferenceIdeal.ReadP.val_main_v12
    Cert.ReferenceIdeal.ReadP.val_main_v15 Cert.ReferenceIdeal.ReadP.val_main_v13
  rw [← deg_eq_ref]
  exact Cert.Spec.dinv_eq _ _ _ _ zeros_apply ones_apply

theorem normK_eq_ref (e : IVec S2x800000 32) :
    normK (F := Ideal) e = Cert.ReferenceIdeal.ReadP.val_main_v31 (F := Ideal) e := by
  unfold normK
  rw [dinv_eq_ref]
  exact norm_eq_ref e

/-- Widening a bf16 table to f32 changes nothing over the extended reals. -/
theorem extf_ideal {S : Shape} (g : FVec Ideal S .bf16) : extf (F := Ideal) .f32 g bitsLt_bf16_f32 = g := rfl

theorem agg_eq_ref (x0 : FVec Ideal S50000x128 .f32) (e : IVec S2x800000 32) (x2 : FVec Ideal S128x128 .f32)
    (b : FVec Ideal S128 .f32) :
    aggK (F := Ideal) (Cert.Spec.matT x0 x2) (normK (F := Ideal) e) (rowK e) (colK e) b
      = Cert.ReferenceIdeal.ReadP.val_main_v49 (F := Ideal) x0 e x2 b := by
  unfold aggK
  rw [extf_ideal, normK_eq_ref, ← matT_eq_ref]
  exact agg_eq_ref_of x0 e x2 b

end Ref

end Cert.KernelIdeal.Hand

end
-- ==== Proof.RefValue.lean ====
/-
  The reference program read as mathematics, at the ideal instance.  Its last stretch takes the aggregated
  table `a : [50000, 128]` (the stage written by the program's line %49), forms the column mean
  `Σ_r a[r, j] / 50000`, the variance as the mean of the centred squares `Σ_r (a[r, j] − mean_j)² / 50000`,
  and returns `max (((a − mean) · rsqrt (var + ε)) · γ + β) 0`: the specification's `bnRelu` of `a`, its
  column mean and its centred variance.  The table itself is the scatter-add, over the edges and the
  self loops, of the gathered rows of `x · Wᵀ` scaled by the two endpoints' inverse square-root degrees,
  plus the bias; every entry of it is a real number as soon as `x`, `W` and the bias are.
-/
import proofs.«132631_j31903017074707_1_alg».proof.Proof.RefReadP
import proofs.«132631_j31903017074707_1_alg».proof.Proof.Spec
import proofs.«132631_j31903017074707_1_alg».proof.Proof.SpecLaw
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.ValueIdx Idealize.ShloMosaic.StableHlo

/-! ## Batch normalisation and the rectifier over the aggregated table -/

section BatchNorm

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal))
  (x3 x4 x5 : (⟨S128, .f32⟩ : BufTy).Contents (Elt Ideal))

/-- A row vector broadcast first to `[1, 128]` and then to `[50000, 128]` is read at its column. -/
theorem idx_row_of_entry (r : Fin 50000) (j : Fin 128) :
    idx_main_v53 (idx_main_v54 (ix2 r j)) = ix1 j :=
  funext fun a => Fin.ext (by match a with | ⟨0, _⟩ => rfl)

/-- The reduction over the rows reads entry `[k, j]` for its `k`-th summand. -/
theorem idx_col_summand (j : Fin 128) (k : Fin 50000) : idx_main_v50 (ix1 j) k = ix2 k j :=
  funext fun a => Fin.ext (by match a with | ⟨0, _⟩ => rfl | ⟨1, _⟩ => rfl)

/-- The stage of line %52 is the column mean of the aggregated table. -/
theorem mean_apply (j : Fin 128) :
    val_main_v52 (F := Ideal) x0 x1 x2 x3 (ix1 j)
      = Cert.Spec.mean (val_main_v49 (F := Ideal) x0 x1 x2 x3) j := by
  rw [val_main_v52_apply, val_main_v50_apply, val_main_cst_10_apply, val_main_v51_apply, val_main_cst_11_apply,
    Ideal.hostDivf_def, Ideal.ofBits_def, Ideal.ofBits_def, Ideal.ofBits_zero_f32, zero_add]
  unfold Cert.Spec.mean Cert.Spec.colSum Cert.Spec.cnt
  have h : ∀ k : Fin 50000, val_main_v49 (F := Ideal) x0 x1 x2 x3 (idx_main_v50 (ix1 j) k)
      = val_main_v49 (F := Ideal) x0 x1 x2 x3 (ix2 k j) := fun k => by rw [idx_col_summand]
  simp only [h]

/-- The mean, broadcast over the rows, is subtracted from each entry (line %55). -/
theorem centred_apply (r : Fin 50000) (j : Fin 128) :
    val_main_v55 (F := Ideal) x0 x1 x2 x3 (ix2 r j)
      = val_main_v49 (F := Ideal) x0 x1 x2 x3 (ix2 r j)
          - Cert.Spec.mean (val_main_v49 (F := Ideal) x0 x1 x2 x3) j := by
  rw [val_main_v55_apply, val_main_v54_apply, val_main_v53_apply, idx_row_of_entry, mean_apply, Ideal.subf_def]

/-- The second reduction over the rows reads entry `[k, j]` for its `k`-th summand. -/
theorem idx_col_summand_sq (j : Fin 128) (k : Fin 50000) : idx_main_v57 (ix1 j) k = ix2 k j :=
  funext fun a => Fin.ext (by match a with | ⟨0, _⟩ => rfl | ⟨1, _⟩ => rfl)

/-- The stage of line %59 is the variance as the mean of the centred squares. -/
theorem var_apply (j : Fin 128) :
    val_main_v59 (F := Ideal) x0 x1 x2 x3 (ix1 j)
      = Cert.Spec.varCentred (val_main_v49 (F := Ideal) x0 x1 x2 x3) j := by
  rw [val_main_v59_apply, val_main_v57_apply, val_main_cst_12_apply, val_main_v58_apply, val_main_cst_13_apply,
    Ideal.hostDivf_def, Ideal.ofBits_def, Ideal.ofBits_def, Ideal.ofBits_zero_f32, zero_add]
  unfold Cert.Spec.varCentred Cert.Spec.cnt
  have h : ∀ k : Fin 50000, val_main_v56 (F := Ideal) x0 x1 x2 x3 (idx_main_v57 (ix1 j) k)
      = (val_main_v49 (F := Ideal) x0 x1 x2 x3 (ix2 k j) - Cert.Spec.mean (val_main_v49 (F := Ideal) x0 x1 x2 x3) j)
        * (val_main_v49 (F := Ideal) x0 x1 x2 x3 (ix2 k j)
            - Cert.Spec.mean (val_main_v49 (F := Ideal) x0 x1 x2 x3) j) := fun k => by
    rw [idx_col_summand_sq, val_main_v56_apply, centred_apply, Ideal.mulf_def]
  simp only [h]

/-- The mean read by the second subtraction (lines %60, %61) at an entry of column `j`. -/
theorem idx_row_of_entry' (r : Fin 50000) (j : Fin 128) :
    idx_main_v60 (idx_main_v61 (ix2 r j)) = ix1 j :=
  funext fun a => Fin.ext (by match a with | ⟨0, _⟩ => rfl)

/-- The inverse standard deviation read at an entry of column `j` (lines %66, %67). -/
theorem idx_scale_of_entry (r : Fin 50000) (j : Fin 128) :
    idx_main_v66 (idx_main_v67 (ix2 r j)) = ix1 j :=
  funext fun a => Fin.ext (by match a with | ⟨0, _⟩ => rfl)

/-- The weight `γ` read at an entry of column `j` (lines %69, %70). -/
theorem idx_gamma_of_entry (r : Fin 50000) (j : Fin 128) :
    idx_main_v69 (idx_main_v70 (ix2 r j)) = ix1 j :=
  funext fun a => Fin.ext (by match a with | ⟨0, _⟩ => rfl)

/-- The shift `β` read at an entry of column `j` (lines %72, %73). -/
theorem idx_beta_of_entry (r : Fin 50000) (j : Fin 128) :
    idx_main_v72 (idx_main_v73 (ix2 r j)) = ix1 j :=
  funext fun a => Fin.ext (by match a with | ⟨0, _⟩ => rfl)

/-- THE REFERENCE'S RESULT is the specification's normalisation and rectifier of the aggregated table, its column
    mean and its centred variance. -/
theorem result_eq :
    (val_main_v75 (F := Ideal) x0 x1 x2 x3 x4 x5 : S50000x128.Idx → EReal)
      = Cert.Spec.bnRelu (val_main_v49 (F := Ideal) x0 x1 x2 x3)
          (Cert.Spec.mean (val_main_v49 (F := Ideal) x0 x1 x2 x3))
          (Cert.Spec.varCentred (val_main_v49 (F := Ideal) x0 x1 x2 x3))
          (fun j => x4 (ix1 j)) (fun j => x5 (ix1 j)) := by
  funext i
  obtain ⟨r, j, rfl⟩ : ∃ (r : Fin 50000) (j : Fin 128), i = ix2 r j := ⟨i 0, i 1, eq_ix2 i⟩
  rw [val_main_v75_apply, val_main_call1_v0_apply, val_main_call1_cst_apply, val_main_v74_apply,
    val_main_v73_apply, val_main_v72_apply, val_main_v71_apply, val_main_v70_apply, val_main_v69_apply,
    val_main_v68_apply, val_main_v67_apply, val_main_v66_apply, val_main_v65_apply, val_main_v64_apply,
    val_main_v63_apply, val_main_cst_14_apply, val_main_v62_apply, val_main_v61_apply, val_main_v60_apply,
    idx_beta_of_entry, idx_gamma_of_entry, idx_scale_of_entry, idx_row_of_entry', var_apply, mean_apply]
  simp only [Ideal.maximumf_def, Ideal.addf_def, Ideal.mulf_def, Ideal.subf_def, Ideal.hostUnary_rsqrt_def,
    Ideal.ofBits_def, Ideal.ofBits_zero_f32]
  unfold Cert.Spec.bnRelu Cert.Spec.eps
  rfl

end BatchNorm

/-! ## The aggregated table

The table is the bias plus a scatter-add into the zero table: edge (or self loop) `e` adds, into the row its target
index names, the row of `x · Wᵀ` its source index names, scaled by the product of the two endpoints' inverse
square-root degrees; the inverse square-root degree of a node is `1 / sqrt deg` where the degree is positive and
zero elsewhere. -/

section Aggregated

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal))
  (x3 : (⟨S128, .f32⟩ : BufTy).Contents (Elt Ideal))

/-- The bias, broadcast over the rows (lines %47, %48), is read at its column. -/
theorem idx_bias_of_entry (r : Fin 50000) (j : Fin 128) :
    idx_main_v47 (idx_main_v48 (ix2 r j)) = ix1 j :=
  funext fun a => Fin.ext (by match a with | ⟨0, _⟩ => rfl)

/-- An entry of the aggregated table is the scattered sum there plus the bias of its column (line %49). -/
theorem agg_apply (r : Fin 50000) (j : Fin 128) :
    val_main_v49 (F := Ideal) x0 x1 x2 x3 (ix2 r j)
      = val_main_v46 (F := Ideal) x0 x1 x2 (ix2 r j) + x3 (ix1 j) := by
  rw [val_main_v49_apply, val_main_v48_apply, val_main_v47_apply, idx_bias_of_entry, Ideal.addf_def]

/-- The scattered sum (line %46) is the exact accumulation of the messages into the zero table, each message
    landing where the scatter's dimension numbers and the target indices send it. -/
theorem scattered_eq :
    val_main_v46 (F := Ideal) x0 x1 x2
      = Ideal.hostScatterAdd scatter_S50000x128_S850000x1_S850000x128_1_0_0_1 (val_main_v44 (F := Ideal))
          (val_main_v45 (F := Ideal) x1) (val_main_v43 (F := Ideal) x0 x1 x2) := by
  unfold val_main_v46 Host.scatterAdd
  exact Ideal.hostScatterAdd_def _ _ _ _ _

/-- The table the scatter accumulates into is zero everywhere (line %44). -/
theorem zero_table_apply (i : S50000x128.Idx) : val_main_v44 (F := Ideal) i = 0 := by
  rw [val_main_v44_apply, val_main_cst_9_apply, Ideal.ofBits_def, Ideal.ofBits_zero_f32]

/-- The edge weight, broadcast over the columns (lines %41, %42), is read at its edge. -/
theorem idx_weight_of_entry (e : Fin 850000) (j : Fin 128) :
    idx_main_v41 (idx_main_v42 (ix2 e j)) = ix1 e :=
  funext fun a => Fin.ext (by match a with | ⟨0, _⟩ => rfl)

/-- A message (line %43): the gathered row's entry times the weight of its edge. -/
theorem message_apply (e : Fin 850000) (j : Fin 128) :
    val_main_v43 (F := Ideal) x0 x1 x2 (ix2 e j)
      = val_main_v40 (F := Ideal) x0 x1 x2 (ix2 e j) * val_main_v31 (F := Ideal) x1 (ix1 e) := by
  rw [val_main_v43_apply, val_main_v42_apply, val_main_v41_apply, idx_weight_of_entry, Ideal.mulf_def]

/-- The gathered rows (line %40): the rows of the linear layer's output at the source indices. -/
theorem gathered_eq :
    val_main_v40 (F := Ideal) x0 x1 x2
      = Host.gather gather_S50000x128_S850000x1_S850000x128_1_0_n_n_0_1_1128 (val_main_v33 (F := Ideal) x0 x2)
          (val_main_v39 (F := Ideal) x1) := rfl

/-- The weight of an edge (line %31) is the product of its two endpoints' inverse square-root degrees. -/
theorem weight_apply (e : S850000.Idx) :
    val_main_v31 (F := Ideal) x1 e = val_main_v23 (F := Ideal) x1 e * val_main_v30 (F := Ideal) x1 e := by
  rw [val_main_v31_apply, Ideal.mulf_def]

/-- The inverse square-root degrees at the source indices (line %23). -/
theorem weight_src_eq :
    val_main_v23 (F := Ideal) x1
      = Host.gather gather_S50000_S850000x1_S850000_n_0_n_n_0_1_1 (val_main_v16 (F := Ideal) x1)
          (val_main_v22 (F := Ideal) x1) := rfl

/-- The inverse square-root degrees at the target indices (line %30). -/
theorem weight_dst_eq :
    val_main_v30 (F := Ideal) x1
      = Host.gather gather_S50000_S850000x1_S850000_n_0_n_n_0_1_1 (val_main_v16 (F := Ideal) x1)
          (val_main_v29 (F := Ideal) x1) := rfl

/-- The left operand of the linear layer's `k`-th product at entry `[r, j]` is `x[r, k]`. -/
theorem idx_lhs_of_entry (r : Fin 50000) (j k : Fin 128) : lidx_main_v33 (ix2 r j) k = ix2 r k :=
  funext fun a => Fin.ext (by match a with | ⟨0, _⟩ => rfl | ⟨1, _⟩ => rfl)

/-- The right operand, the transposed weight matrix at `[k, j]`, is `W[j, k]`. -/
theorem idx_rhs_of_entry (r : Fin 50000) (j k : Fin 128) :
    idx_main_v32 (ridx_main_v33 (ix2 r j) k) = ix2 j k :=
  funext fun a => Fin.ext (by match a with | ⟨0, _⟩ => rfl | ⟨1, _⟩ => rfl)

/-- The linear layer (lines %32, %33) at an entry: `Σ_k x[r, k] · W[j, k]`. -/
theorem linear_apply (r : Fin 50000) (j : Fin 128) :
    val_main_v33 (F := Ideal) x0 x2 (ix2 r j) = ∑ k : Fin 128, x0 (ix2 r k) * x2 (ix2 j k) := by
  rw [val_main_v33_apply]
  have h : ∀ k : Fin 128, x0 (lidx_main_v33 (ix2 r j) k) * val_main_v32 (F := Ideal) x2 (ridx_main_v33 (ix2 r j) k)
      = x0 (ix2 r k) * x2 (ix2 j k) := fun k => by
    rw [val_main_v32_apply, idx_lhs_of_entry, idx_rhs_of_entry]
  simp only [h]

/-- The linear layer's output is the specification's `x · Wᵀ`. -/
theorem linear_eq :
    (val_main_v33 (F := Ideal) x0 x2 : S50000x128.Idx → EReal) = Cert.Spec.matT x0 x2 := by
  funext i
  obtain ⟨r, j, rfl⟩ : ∃ (r : Fin 50000) (j : Fin 128), i = ix2 r j := ⟨i 0, i 1, eq_ix2 i⟩
  rw [linear_apply]
  rfl

end Aggregated

/-! ## The inverse square-root degrees, and the aggregated table is real -/

section Real

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal))
  (x3 : (⟨S128, .f32⟩ : BufTy).Contents (Elt Ideal))

/-- The mask "greater than" on two extended reals is the bit of the strict order. -/
theorem ogt_word (d z : EReal) :
    FloatOps.cmpf (F := Ideal) (φ := .f32) .ogt d z = BitVec.ofBool (decide (z < d)) := rfl

/-- The inverse square-root degree of a node (lines %12 … %16): one over the square root of its degree where the
    degree is positive, zero elsewhere. -/
theorem dinv_apply (i : S50000.Idx) :
    val_main_v16 (F := Ideal) x1 i
      = if 0 < val_main_v10 (F := Ideal) x1 i then Ideal.div 1 (Ideal.sqrt (val_main_v10 (F := Ideal) x1 i)) else 0 := by
  rw [val_main_v16_apply, val_main_v12_apply, val_main_v15_apply, val_main_v14_apply, val_main_cst_2_apply,
    val_main_v13_apply, val_main_v11_apply, val_main_cst_1_apply, val_main_call0_v1_apply, val_main_call0_v0_apply,
    val_main_cst_3_apply, Ideal.hostDivf_def, Ideal.hostUnary_sqrt_def, Ideal.ofBits_def, Ideal.ofBits_def,
    Cert.Spec.one_word, Ideal.ofBits_zero_f32]
  generalize val_main_v10 (F := Ideal) x1 i = d
  rw [ogt_word]
  by_cases h : 0 < d
  · rw [if_pos h, decide_eq_true h]; exact select_one _ _
  · rw [if_neg h, decide_eq_false h]; exact select_zero _ _

/-- Every inverse square-root degree is a real number: where the degree is positive it is the reciprocal square
    root of a positive extended real (zero at infinity), elsewhere it is zero. -/
theorem dinv_isReal : Cert.Spec.IsReal (S := S50000) (val_main_v16 (F := Ideal) x1) := fun i => by
  rw [dinv_apply]
  by_cases h : 0 < val_main_v10 (F := Ideal) x1 i
  · rw [if_pos h, ← Cert.Spec.rsqrt_eq_one_div_sqrt _ h]; exact Cert.Spec.rsqrt_isReal_of_pos _ h
  · rw [if_neg h]; exact ⟨0, rfl⟩

/-- Every edge weight is a real number. -/
theorem weight_isReal : Cert.Spec.IsReal (S := S850000) (val_main_v31 (F := Ideal) x1) := fun e => by
  rw [weight_apply, weight_src_eq, weight_dst_eq]
  exact Cert.Spec.mul_real (Cert.Spec.IsReal.gather _ (dinv_isReal x1) _ e)
    (Cert.Spec.IsReal.gather _ (dinv_isReal x1) _ e)

/-- Every message is a real number when `x` and `W` are real. -/
theorem message_isReal (h0 : Cert.Spec.IsReal (S := S50000x128) x0) (h2 : Cert.Spec.IsReal (S := S128x128) x2) :
    Cert.Spec.IsReal (S := S850000x128) (val_main_v43 (F := Ideal) x0 x1 x2) := fun i => by
  obtain ⟨e, j, rfl⟩ : ∃ (e : Fin 850000) (j : Fin 128), i = ix2 e j := ⟨i 0, i 1, eq_ix2 i⟩
  have hlin : Cert.Spec.IsReal (S := S50000x128) (val_main_v33 (F := Ideal) x0 x2) := by
    rw [linear_eq]; exact Cert.Spec.isReal_matT h0 h2
  rw [message_apply, gathered_eq]
  exact Cert.Spec.mul_real (Cert.Spec.IsReal.gather _ hlin _ _) (weight_isReal x1 _)

/-- THE AGGREGATED TABLE IS REAL when `x`, `W` and the bias are: a finite sum of real messages into the zero
    table, plus a real bias. -/
theorem agg_isReal (h0 : Cert.Spec.IsReal (S := S50000x128) x0) (h2 : Cert.Spec.IsReal (S := S128x128) x2)
    (h3 : Cert.Spec.IsReal (S := S128) x3) :
    Cert.Spec.IsReal (S := S50000x128) (val_main_v49 (F := Ideal) x0 x1 x2 x3) := fun i => by
  obtain ⟨r, j, rfl⟩ : ∃ (r : Fin 50000) (j : Fin 128), i = ix2 r j := ⟨i 0, i 1, eq_ix2 i⟩
  have hz : Cert.Spec.IsReal (S := S50000x128) (val_main_v44 (F := Ideal)) := fun q =>
    ⟨0, by rw [zero_table_apply]; rfl⟩
  rw [agg_apply, scattered_eq]
  exact Cert.Spec.add_real (Cert.Spec.IsReal.hostScatterAdd _ hz _ (message_isReal x0 x1 x2 h0 h2) _) (h3 _)

end Real

end Cert.ReferenceIdeal.RefValue

end
-- ==== Proof.KValue.lean ====
/-
  What the idealized kernel program's result array holds, as the reference's own function of the six argument arrays.
  The last region's write-backs leave the normalisation of the aggregated table `agg` by the row of means and the row
  of variances the host computed from the statistics region's two outputs. The aggregated table is the reference's
  (the same host operations on the same indices; the matmul region's array is `x · Wᵀ`; `rsqrt d` is `1 / sqrt d`
  wherever the degree `d` is positive); the statistics region's outputs are its column sums and column sums of
  squares, so the mean is the reference's, and the variance — second moment less squared mean — is the reference's
  mean of centred squares because every entry of `agg` is a real number when x, W and b are.
-/
import proofs.«132631_j31903017074707_1_alg».proof.Proof.Run
import proofs.«132631_j31903017074707_1_alg».proof.Proof.Value0
import proofs.«132631_j31903017074707_1_alg».proof.Proof.Value1
import proofs.«132631_j31903017074707_1_alg».proof.Proof.Value2
import proofs.«132631_j31903017074707_1_alg».proof.Proof.HostK
import proofs.«132631_j31903017074707_1_alg».proof.Proof.RefValue
import proofs.«132631_j31903017074707_1_alg».proof.Proof.SpecLaw

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The arguments through the first three host stretches -/

theorem W3_arg0 (c : Dev nD) : W3 m c (Proc.devRef .tc main_arg0) = m ((c : Thread nD τ).loc main_arg0) :=
  (StableHlo.after_of_writes_sub hostOps0_2 _ hostOps0_2_writes (by decide)).trans <|
    (StableHlo.after_of_writes_sub hostOps0_1 _ hostOps0_1_writes (by decide)).trans <|
      (StableHlo.after_of_writes_sub hostOps0 _ hostOps0_writes (by decide)).trans rfl
theorem W3_arg2 (c : Dev nD) : W3 m c (Proc.devRef .tc main_arg2) = m ((c : Thread nD τ).loc main_arg2) :=
  (StableHlo.after_of_writes_sub hostOps0_2 _ hostOps0_2_writes (by decide)).trans <|
    (StableHlo.after_of_writes_sub hostOps0_1 _ hostOps0_1_writes (by decide)).trans <|
      (StableHlo.after_of_writes_sub hostOps0 _ hostOps0_writes (by decide)).trans rfl

/-- The matmul region's array is `x · Wᵀ` of the launch arrays. -/
theorem linear_read (c : Dev nD) :
    (W4 m c (Proc.devRef .tc main_v30) : S50000x128.Idx → EReal)
      = Cert.Spec.matT (m ((c : Thread nD τ).loc main_arg0)) (m ((c : Thread nD τ).loc main_arg2)) := by
  have h := (W4_arr m c 2).trans (final0 (B3 m) c)
  rw [show B3 m c main_arg0 = m ((c : Thread nD τ).loc main_arg0) from W3_arg0 m c,
    show B3 m c main_arg2 = m ((c : Thread nD τ).loc main_arg2) from W3_arg2 m c] at h
  exact h

/-- The aggregated table the statistics region is entered with is the reference's stage of the launch arrays. -/
theorem agg_is_ref (c : Dev nD) :
    (W5 m c (Proc.devRef .tc main_v47) : S50000x128.Idx → EReal)
      = Cert.ReferenceIdeal.ReadP.val_main_v49 (F := Ideal) (m ((c : Thread nD τ).loc main_arg0)) (m ((c : Thread nD τ).loc main_arg1))
          (m ((c : Thread nD τ).loc main_arg2)) (m ((c : Thread nD τ).loc main_arg3)) := by
  have hread := agg_read (F := Ideal) (W4 m c)
  have h29 : W4 m c (Proc.devRef .tc main_v29) = normK (F := Ideal) (m ((c : Thread nD τ).loc main_arg1)) :=
    (W4_of_ne m c main_v29 (by decide)).trans (norm_read (F := Ideal) (W0 m c))
  have h3 : W4 m c (Proc.devRef .tc main_v3) = rowK (m ((c : Thread nD τ).loc main_arg1)) :=
    (W4_of_ne m c main_v3 (by decide)).trans (row_read (F := Ideal) (W0 m c))
  have h6 : W4 m c (Proc.devRef .tc main_v6) = colK (m ((c : Thread nD τ).loc main_arg1)) :=
    (W4_of_ne m c main_v6 (by decide)).trans (col_read (F := Ideal) (W0 m c))
  have hb : W4 m c (Proc.devRef .tc main_arg3) = m ((c : Thread nD τ).loc main_arg3) :=
    (W4_of_ne m c main_arg3 (by decide)).trans (bias_kept (F := Ideal) (W0 m c))
  have h30 := linear_read m c
  refine hread.trans ?_
  rw [h29, h3, h6, hb]
  rw [show (W4 m c (Proc.devRef .tc main_v30)) = Cert.Spec.matT (m ((c : Thread nD τ).loc main_arg0)) (m ((c : Thread nD τ).loc main_arg2)) from h30]
  exact agg_eq_ref _ _ _ _

/-! ## The statistics and the normalisation -/

/-- The aggregated table as the reference's stage of the launch arrays. -/
abbrev aggRef (c : Dev nD) : Cert.Spec.Tab :=
  Cert.ReferenceIdeal.ReadP.val_main_v49 (F := Ideal) (m ((c : Thread nD τ).loc main_arg0)) (m ((c : Thread nD τ).loc main_arg1))
    (m ((c : Thread nD τ).loc main_arg2)) (m ((c : Thread nD τ).loc main_arg3))

/-- The normalisation region is entered with the table the statistics region was entered with. -/
theorem agg_at_norm (c : Dev nD) : W7 m c (Proc.devRef .tc main_v47) = W5 m c (Proc.devRef .tc main_v47) :=
  (agg_kept (F := Ideal) (W6 m c)).trans ((W6_arr m c 0).trans (((dat1 (B5 m) c).arrAt_in 0 rfl _).trans (A_eq1 (B5 m) c 0)))

theorem W6_arg4 (c : Dev nD) : W6 m c (Proc.devRef .tc main_arg4) = m ((c : Thread nD τ).loc main_arg4) :=
  (W6_of_ne m c main_arg4 (by decide)).trans <|
    (StableHlo.after_of_writes_sub hostOps1 _ hostOps1_writes (by decide)).trans <|
      (W4_of_ne m c main_arg4 (by decide)).trans <|
        (StableHlo.after_of_writes_sub hostOps0_2 _ hostOps0_2_writes (by decide)).trans <|
          (StableHlo.after_of_writes_sub hostOps0_1 _ hostOps0_1_writes (by decide)).trans <|
            (StableHlo.after_of_writes_sub hostOps0 _ hostOps0_writes (by decide)).trans rfl
theorem W6_arg5 (c : Dev nD) : W6 m c (Proc.devRef .tc main_arg5) = m ((c : Thread nD τ).loc main_arg5) :=
  (W6_of_ne m c main_arg5 (by decide)).trans <|
    (StableHlo.after_of_writes_sub hostOps1 _ hostOps1_writes (by decide)).trans <|
      (W4_of_ne m c main_arg5 (by decide)).trans <|
        (StableHlo.after_of_writes_sub hostOps0_2 _ hostOps0_2_writes (by decide)).trans <|
          (StableHlo.after_of_writes_sub hostOps0_1 _ hostOps0_1_writes (by decide)).trans <|
            (StableHlo.after_of_writes_sub hostOps0 _ hostOps0_writes (by decide)).trans rfl

/-- The statistics region's first output holds the table's column sums. -/
theorem sum_read (c : Dev nD) (j : Fin 128) :
    (W6 m c (Proc.devRef .tc main_v48_0) : S1x128.Idx → EReal) (ix2 0 j) = Cert.Spec.colSum (aggRef m c) j := by
  have h := (W6_arr m c 1).trans (final1_sum (B5 m) c)
  rw [show (B5 m c main_v47 : S50000x128.Idx → EReal) = aggRef m c from agg_is_ref m c] at h
  exact congrFun h (ix2 0 j)
/-- Its second output holds the column sums of squares. -/
theorem sumsq_read (c : Dev nD) (j : Fin 128) :
    (W6 m c (Proc.devRef .tc main_v48_1) : S1x128.Idx → EReal) (ix2 0 j) = Cert.Spec.colSumSq (aggRef m c) j := by
  have h := (W6_arr m c 2).trans (final1_sumsq (B5 m) c)
  rw [show (B5 m c main_v47 : S50000x128.Idx → EReal) = aggRef m c from agg_is_ref m c] at h
  exact congrFun h (ix2 0 j)

/-- THE RESULT: what the normalisation region's write-backs leave is the reference's result stage of the launch arrays,
    when x, W and b are real-valued (so that the aggregated table is, and the two forms of the variance agree). -/
theorem kernel_value (c : Dev nD)
    (h0 : Cert.Spec.IsReal (S := S50000x128) (m ((c : Thread nD τ).loc main_arg0)))
    (h2 : Cert.Spec.IsReal (S := S128x128) (m ((c : Thread nD τ).loc main_arg2)))
    (h3 : Cert.Spec.IsReal (S := S128) (m ((c : Thread nD τ).loc main_arg3))) :
    (((dat2 (F := Ideal) (B7 m) c).arrAt 5 cfg2.N) : S50000x128.Idx → EReal)
      = Cert.ReferenceIdeal.ReadP.val_main_v75 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have hreal : Cert.Spec.IsReal (aggRef m c) := Cert.ReferenceIdeal.RefValue.agg_isReal _ _ _ _ h0 h2 h3
  have h47 : (B7 m c main_v47 : S50000x128.Idx → EReal) = aggRef m c := (agg_at_norm m c).trans (agg_is_ref m c)
  have hmean : (fun j : Fin 128 => (B7 m c main_v50 : S1x128.Idx → EReal) (ix2 0 j)) = Cert.Spec.mean (aggRef m c) :=
    funext fun j => (mean_at (W6 m c) j).trans (by rw [sum_read m c j]; rfl)
  have hvar : (fun j : Fin 128 => (B7 m c main_v54 : S1x128.Idx → EReal) (ix2 0 j)) = Cert.Spec.varCentred (aggRef m c) :=
    funext fun j => (var_at (W6 m c) j).trans (by rw [sum_read m c j, sumsq_read m c j]; exact Cert.Spec.var_eq _ hreal j)
  have hγ : (fun j : Fin 128 => (B7 m c main_v55 : S1x128.Idx → EReal) (ix2 0 j)) = fun j => m ((c : Thread nD τ).loc main_arg4) (ix1 j) :=
    funext fun j => (gamma_at (W6 m c) j).trans (congrFun (W6_arg4 m c) (ix1 j))
  have hβ : (fun j : Fin 128 => (B7 m c main_v56 : S1x128.Idx → EReal) (ix2 0 j)) = fun j => m ((c : Thread nD τ).loc main_arg5) (ix1 j) :=
    funext fun j => (beta_at (W6 m c) j).trans (congrFun (W6_arg5 m c) (ix1 j))
  rw [final2 (B7 m) c, h47, hmean, hvar, hγ, hβ]
  exact (Cert.ReferenceIdeal.RefValue.result_eq _ _ _ _ _ _).symm

end Cert.KernelIdeal.Hand

end
-- ==== Proof.Finite.lean ====
/-
  From the printed predicate "every entry of x, W, b, gamma, beta has absolute value below +∞"
  (a conjunction of five all-reductions, read at the ideal instance) to: every entry of each of the
  five float inputs is a real number.  At the extended reals the f32 word of +∞ is ⊤, the absolute
  value is max x (−x), and max x (−x) < ⊤ excludes exactly x = ⊤ and x = ⊥.
-/
import proofs.«132631_j31903017074707_1_alg».proof.Pre_finite_inputs
import proofs.«132631_j31903017074707_1_alg».proof.Proof.Gen.Pre_finite_inputs
import proofs.«132631_j31903017074707_1_alg».proof.Proof.Spec
import Idealize.ShloMosaic.PureOps.Ideal
import Idealize.ShloMosaic.Lib.ReduceAll
import Idealize.ShloMosaic.Lib.ValueIdx

noncomputable section

namespace Cert.Pre_finite_inputs.Hand

open Idealize.ShloMosaic Idealize.ShloMosaic.ValueIdx Cert.Pre_finite_inputs

/-- The rank-0 shape has exactly one index. -/
instance subsingleton_scalarIdx : Subsingleton S_.Idx := ⟨fun a b => funext fun d => d.elim0⟩

/-- The f32 word `0x7F800000` denotes `⊤`. -/
theorem inf_eq_top : Ideal.ofBits .f32 0x7F800000#32 = (⊤ : EReal) := by
  simp [Ideal.ofBits, Ideal.ieee]

/-- One entry: `|x| < +∞` as a one-bit word equal to 1 makes `x` a real number. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- One array: its all-reduction of `|x| < +∞` being 1 makes every entry real. -/
theorem isReal_of_all {S : Shape} {axes : List (Fin S.rank)} (x : FVec Ideal S .f32)
    (b : S_.BroadcastsInDim S (![] : Fin 0 → Fin S.rank)) (hr : S.ReducesTo axes S_) (hu : 0 < S_.numel)
    (e : Host.reduce IntOp.andi
          (cmpf .olt (Host.absf x) (broadcastInDim S ![] b (constant S_ .f32 0x7F800000#32)))
          (constantI S_ 1 1#1) hr hu ix0 = 1#1) :
    Cert.Spec.IsReal x := by
  intro i
  have hi := Host.reduce_andi_all _ _ hr hu ix0 e i
  exact real_of_abs_lt_inf (x i) hi

/-- The precondition at the ideal instance makes all five float inputs real-valued. -/
theorem isReal_of_pre (x0 : FVec Ideal S50000x128 .f32) (x1 : IVec S2x800000 32) (x2 : FVec Ideal S128x128 .f32)
    (x3 : FVec Ideal S128 .f32) (x4 : FVec Ideal S128 .f32) (x5 : FVec Ideal S128 .f32)
    (h : Cert.Pre_finite_inputs.fn (F := Ideal) x0 x1 x2 x3 x4 x5 = fun _ => 1#1) :
    Cert.Spec.IsReal x0 ∧ Cert.Spec.IsReal x2 ∧ Cert.Spec.IsReal x3 ∧ Cert.Spec.IsReal x4 ∧ Cert.Spec.IsReal x5 := by
  have h0 := congrFun h ix0
  dsimp only [fn, fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isReal_of_all x0 _ _ _ e0, isReal_of_all x2 _ _ _ e2, isReal_of_all x3 _ _ _ e3,
    isReal_of_all x4 _ _ _ e4, isReal_of_all x5 _ _ _ e5⟩

end Cert.Pre_finite_inputs.Hand

end
-- ==== Proof.lean ====
/-
  The certificate of the graph-convolution + batch-norm + rectifier kernel against its jnp reference.

  Both programs build the edge list with self loops, the node degrees by a scatter-add of ones, the symmetric
  normalisation `norm[e] = dinv[row e] · dinv[col e]`, the linear layer `h = x · Wᵀ`, the messages `h[row e] · norm[e]`,
  their scatter-add at `col e` plus the bias — the aggregated table `agg` — and then normalise every column of `agg` by
  its mean and variance, scale, shift and rectify.  They differ in three places: the kernel program computes `h`
  block by block (ten blocks of 5000 rows), `dinv` as `rsqrt deg` where the reference has `1 / sqrt deg`, and the column
  statistics by accumulating block sums and block sums of squares, taking the variance as second moment less squared
  mean, where the reference takes the mean of the centred squares.  Over the extended reals the first two are
  identities; the third is one when every entry of `agg` is a real number, which the precondition (finite x, W, b) gives.

  The three frames: the kernel programs' from their run as host stretches and three kernel regions (Proof/Run.lean at the
  idealized program, Proof/KRun.lean at the word-level one, the same text); the reference's from its run with the
  result dropped.  The idealization rewrote nothing, so there is nothing to preserve.
-/
import proofs.«132631_j31903017074707_1_alg».proof.Defs
import proofs.«132631_j31903017074707_1_alg».proof.Proof.Gen.Kernel
import proofs.«132631_j31903017074707_1_alg».proof.Proof.Gen.KernelIdeal
import proofs.«132631_j31903017074707_1_alg».proof.Proof.Gen.ReferenceIdeal
import proofs.«132631_j31903017074707_1_alg».proof.Proof.Gen.Pre_finite_inputs
import proofs.«132631_j31903017074707_1_alg».proof.Proof.KRun
import proofs.«132631_j31903017074707_1_alg».proof.Proof.KValue
import proofs.«132631_j31903017074707_1_alg».proof.Proof.RefValue
import proofs.«132631_j31903017074707_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the six arguments both idealized programs end with the result array at the reference's
    result stage of those arguments: the kernel program by its run and the value of its last region's write-backs, the
    reference by its run. -/
theorem algebraic : Cert.algebraic_KernelIdeal_ReferenceIdeal := by
  intro m ρ m' ρ' hpre hagree
  have hR := fun c => Cert.Pre_finite_inputs.Hand.isReal_of_pre _ _ _ _ _ _ (hpre c)
  refine ⟨fun c => Cert.ReferenceIdeal.ReadP.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_value m c (hR c).1 (hR c).2.1 (hR c).2.2.1), (h c).2⟩)
      (Cert.KernelIdeal.Hand.run_result m ρ)
  · refine (θ_run Cert.ReferenceIdeal.defs _ _).mono (fun r h c => ⟨?_, (h c).2⟩) (Cert.ReferenceIdeal.ValueP.run (F := Ideal) m' ρ')
    rw [(h c).1, Cert.ReferenceIdeal.ReadP.val_main_v75_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
